-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S4096x1 : Shape := ⟨2, ![4096, 1]⟩
abbrev S512x4096 : Shape := ⟨2, ![512, 4096]⟩
abbrev S512x1 : Shape := ⟨2, ![512, 1]⟩
abbrev S512 : Shape := ⟨1, ![512]⟩
abbrev S1x4096 : Shape := ⟨2, ![1, 4096]⟩
abbrev S512x512 : Shape := ⟨2, ![512, 512]⟩
abbrev S1x512 : Shape := ⟨2, ![1, 512]⟩
abbrev S512x2048 : Shape := ⟨2, ![512, 2048]⟩

abbrev nBuf : Space → Nat
  | .hbm => 6
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x1, .f32⟩
  | .hbm, ⟨4, _⟩ => ⟨S1x4096, .f32⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v34 : BitVec 1 := Scalar.cmpi .eq arg2 c7_i32
  let v35 : BitVec 32 := Scalar.extui v34
  let c0_i32_17 : BitVec 32 := 0#32
  let v36 : BitVec 1 := Scalar.cmpi .ne v35 c0_i32_17
  v36

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S4096x1_S1x4096 : S4096x1.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S512x512_d0_w32 : S512x512.Iotas .tc 32 [0]
  iota_S512x512_d1_w32 : S512x512.Iotas .tc 32 [1]
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  bitsLt_bf16_f32 : FTy.bits .bf16 < FTy.bits .f32
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x4096.size a
  hwx1_3 : ∀ i : grid1.Coords, EltTy.bits .f32 = 32 ∨ (Rect.block (s := S4096x4096) S512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S4096x4096.size a
  hwx1_4 : ∀ i : grid1.Coords, EltTy.bits .f32 = 32 ∨ (Rect.block (s := S4096x4096) S512x2048.size (cc1_transform_4 i) (hinb1_4 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Body0.lean ====
/-
  Region 0 of the program: the degree pass. Its grid has 8 points; point `t` stages rows
  512·t … 512·t+511 of the adjacency matrix (all 4096 columns) and writes back the 512×1 column
  whose entry r is 1 / (Σ_k A[512·t + r, k] + 1).

  This module fixes the proof data of that pipeline at arbitrary entry contents `V` of the core's
  buffers: the input window's staging buffer holds its block of `V`'s matrix at every point, the
  output window's buffer holds the body's one stored value, a pure function (`k0_pay1`) of the
  loaded block, and nothing is carried from point to point. The body's triple is run once on
  abstract staging memrefs and then instantiated at every grid point.
-/
import proofs.«159127_j75093208203291_1_alg».proof.Proof.Gen.Kernel.Launch
import proofs.«159127_j75093208203291_1_alg».proof.Proof.Gen.Kernel.Skeleton
import proofs.«159127_j75093208203291_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets, as the printed rectangles spell them. -/
theorem off2_zero : (![0, 0] : Fin 2 → Nat) = fun _ => 0 := by
  funext a; fin_cases a <;> rfl

/-- Window `w`'s block of the entry contents at point `t` (region 0). -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The degree body on whole staging memrefs: it reads the row block `x0`, and leaves the output
    buffer at the reciprocal shifted row sums of `x0`, the input buffer as it was. -/
theorem run0 (c : Dev nD) (E : Set ℕ) (i : grid0.Coords)
    (arg1 : Memref sig .tc .vmem S512x4096 .f32) (harg1 : arg1.IsWhole)
    (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero off2_zero inb_S512x1_S512x1_0_0 y⟩),
    View.canon_unit_zero off2_zero]
  simp only [View.readAt_eq_ld, View.ld_unit_zero (S := S512x4096) off2_zero]

/-- The proof data of pipeline 0 on core `c`, at entry contents `V`: the arrays as the region finds
    them; after the body the input's buffer at its block, the output's at the body's stored value of that
    block; the invariant is the untouched scoped rest and the generator register; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay1 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = k0_pay1 (blk0 V c 0 t) := by dsimp only [dat0]

/-- The input window's current buffer holds its block of the entry matrix at every point: it is
    fetched at every point and the body leaves it in place. -/
theorem dat0_before_0 (c : Dev nD) (t : Fin cfg0.N) (d) : (dat0 V c).before 0 t d = blk0 V c 0 t :=
  ((dat0 V c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)

/-- The body obligation of region 0, at every point. -/
theorem body_obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [dat0_before_0]
  rw [show (dat0 V c).Φ t.succ = (dat0 V c).Φ t.castSucc from rfl,
    show (dat0 V c).owesAt () t.succ = (dat0 V c).owesAt () t.castSucc from rfl,
    dat0_after_0, dat0_after_1]
  iintro ⟨HΦ, Ho, ⟨%d0, H0⟩, ⟨%d1, H1⟩⟩
  iapply (run0 c Set.univ (grid0.coords t) _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.Kernel.Hand

end
-- ==== Proof.K.Runs1.lean ====
/-
  The fused body of region 1 on abstract whole staging memrefs, in the three cases its two conditionals
  leave on the grid. With x0, x1, x2, x3 the loaded blocks of A, h, the reciprocal-degree row and W, and s the
  accumulator's contents when the body starts:
    first point of a run : the accumulator ends at  pay2 (x…) 0̂   (0̂ the stored zero splat `k1_pay1`),
    middle point         : the accumulator ends at  pay2 (x…) s,
    last point of a run  : the accumulator ends at  pay2 (x…) s, and the output buffer holds the same.
  Off the last point the output buffer is handed back untouched; the inputs are never written.
-/
import proofs.«159127_j75093208203291_1_alg».proof.Proof.Gen.Kernel.Launch
import proofs.«159127_j75093208203291_1_alg».proof.Proof.Gen.Kernel.Skeleton
import proofs.«159127_j75093208203291_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Zero offsets, as the printed rectangles spell them. -/
theorem zero_offsets : (![0, 0] : Fin 2 → Nat) = fun _ => 0 := by
  funext a; fin_cases a <;> rfl

/-- "This is a run's first point" as the body computes it from the grid coordinates. -/
abbrev cond1_0 (i : grid1.Coords) : Prop :=
  (Scalar.cmpi .ne (Scalar.extui (Scalar.cmpi .eq (BitVec.ofNat 32 (i 2).val) 0#32)) 0#32) = 1#1

/-- "This is a run's last point" as the body computes it. -/
abbrev cond1_1 (i : grid1.Coords) : Prop := k1_cond2 i = 1#1

set_option maxHeartbeats 1000000 in
/-- A middle point of a run. -/
theorem run_mid (c : Dev nD) (E : Set ℕ) (i : grid1.Coords)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc0 : ¬cond1_0 i) (hc1 : ¬cond1_1 i)
    (x0 x1 : Vec F S512x512 .f32) (x2 : Vec F S1x512 .f32) (x3 xo s : Vec F S512x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ owns (c : Thread nD τ) arg8 fullShare (k1_pay2 i x0 x2 x1 x3 s)) -∗ K ⟨⟩))
      ⊢ wp frame (wpE (defs₀ (F := F)) Variants.none c none) E
          (cc1__fused_kernel i arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [Ho]
  · iexists _; isplitr; · ipureintro; exact harg7.read_unread _
    iexact Ho
  iexists _; isplitr
  swap; · iexact Hs
  ipureintro
  rw [View.read_writes_eq_canon _ _ _ (fun y => ⟨_, List.mem_singleton_self _,
      View.mem_set_unit_zero zero_offsets inb_S512x2048_S512x2048_0_0 y⟩),
    View.canon_unit_zero zero_offsets]
  simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets]

set_option maxHeartbeats 1000000 in
/-- The first point of a run: the accumulator is reset, then updated. -/
theorem run_first (c : Dev nD) (E : Set ℕ) (i : grid1.Coords)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc0 : cond1_0 i) (hc1 : ¬cond1_1 i)
    (x0 x1 : Vec F S512x512 .f32) (x2 : Vec F S1x512 .f32) (x3 xo : Vec F S512x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ owns (c : Thread nD τ) arg8 fullShare (k1_pay2 i x0 x2 x1 x3 k1_pay1)) -∗ K ⟨⟩))
      ⊢ wp frame (wpE (defs₀ (F := F)) Variants.none c none) E
          (cc1__fused_kernel i arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, Hs⟩, Hk⟩
  obtain rfl := harg3.eq_unread hf0; obtain rfl := harg4.eq_unread hf1; obtain rfl := harg5.eq_unread hf2
  obtain rfl := harg6.eq_unread hf3; obtain rfl := harg7.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [Ho]
  · iexists _; isplitr; · ipureintro; exact harg7.read_unread _
    iexact Ho
  iexists _; isplitr
  swap; · iexact Hs
  ipureintro
  sl_unfold_words
  rw [View.read_writes_eq_canon _ _ _ (fun y => ⟨_, List.mem_cons.mpr (Or.inl rfl),
      View.mem_set_unit_zero zero_offsets inb_S512x2048_S512x2048_0_0 y⟩),
    View.canon_cons_unit_zero zero_offsets]
  simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets, View.readCov_unit_zero (S := S512x2048) _ zero_offsets]

set_option maxHeartbeats 1000000 in
/-- The last point of a run: the accumulator is updated and copied to the output buffer. -/
theorem run_last (c : Dev nD) (E : Set ℕ) (i : grid1.Coords)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc0 : ¬cond1_0 i) (hc1 : cond1_1 i)
    (x0 x1 : Vec F S512x512 .f32) (x2 : Vec F S1x512 .f32) (x3 s : Vec F S512x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay2 i x0 x2 x1 x3 s)
            ∗ owns (c : Thread nD τ) arg8 fullShare (k1_pay2 i x0 x2 x1 x3 s)) -∗ K ⟨⟩))
      ⊢ wp frame (wpE (defs₀ (F := F)) Variants.none c none) E
          (cc1__fused_kernel i arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%do_, %fo, -, Ho⟩, ⟨%fs, %hfs, Hs⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [Ho]
  · iexists _; isplitr
    swap; · iexact Ho
    ipureintro
    sl_unfold_words
    rw [View.read_writes_eq_canon _ _ _ (fun y => ⟨_, List.mem_singleton_self _,
        View.mem_set_unit_zero zero_offsets inb_S512x2048_S512x2048_0_0 y⟩),
      View.canon_unit_zero zero_offsets]
    simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets, View.readCov_unit_zero (S := S512x2048) _ zero_offsets]
  iexists _; isplitr
  swap; · iexact Hs
  ipureintro
  sl_unfold_words
  rw [View.read_writes_eq_canon _ _ _ (fun y => ⟨_, List.mem_singleton_self _,
      View.mem_set_unit_zero zero_offsets inb_S512x2048_S512x2048_0_0 y⟩),
    View.canon_unit_zero zero_offsets]
  simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets, View.readCov_unit_zero (S := S512x2048) _ zero_offsets]

end Cert.Kernel.Hand

end
-- ==== Proof.K.Body1.lean ====
/-
  Region 1 of the program: the fused mixture and matrix product. Its grid has 8 · 2 · 8 = 128 points,
  numbered t = 16·i + 8·j + k. Point t stages the 512×512 blocks (i, k) of A and of h, the 1×512 block k
  of the reciprocal-degree row, and the 512×2048 block (k, j) of W; a 512×2048 scratch accumulator lives
  across the eight points of a run (k = 0 … 7): it is reset at k = 0, updated at every point by the
  body's one payload (`k1_pay2`: previous accumulator plus the block product), and copied to the output
  window's buffer only at k = 7, the one point of the run at which the pipeline writes the output block back.

  The proof data therefore names the accumulator's contents after every point (`acc1`, by recursion over
  the point's number) and carries them in the region invariant; the output window is idle except at k = 7.
  The body obligation splits by the point's place in its run: first, middle, last.
-/
import proofs.«159127_j75093208203291_1_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, points, and the accumulator -/

/-- Window `w`'s block of the entry contents at point `t` (region 1). -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The point numbered `n` (numbers wrap at 128; only numbers below 128 are ever used). -/
def pt1 (n : ℕ) : Fin cfg1.N := ⟨n % 128, lt_of_lt_of_eq (Nat.mod_lt _ (by decide)) N_1.symm⟩

theorem pt1_val (t : Fin cfg1.N) : pt1 t.val = t :=
  Fin.ext (Nat.mod_eq_of_lt (lt_of_lt_of_eq t.isLt N_1))

/-- One point's update of the accumulator: the body's payload at the point's blocks. -/
def step1 (c : Dev nD) (t : Fin cfg1.N) (s : Vec F S512x2048 .f32) : Vec F S512x2048 .f32 :=
  k1_pay2 (grid1.coords t) (blk1 V c 0 t) (blk1 V c 2 t) (blk1 V c 1 t) (blk1 V c 3 t) s

/-- The accumulator after the point numbered `n`: at a run's first point the update of the zero splat,
    otherwise the update of what the point before left. -/
def acc1 (c : Dev nD) : ℕ → Vec F S512x2048 .f32
  | 0 => step1 V c (pt1 0) k1_pay1
  | n + 1 => step1 V c (pt1 (n + 1)) (if (n + 1) % 8 = 0 then k1_pay1 else acc1 c n)

theorem acc1_first (c : Dev nD) (t : Fin cfg1.N) (h : t.val % 8 = 0) :
    acc1 V c t.val = step1 V c t k1_pay1 := by
  obtain ⟨n, hn⟩ := t
  cases n with
  | zero => show step1 V c (pt1 0) k1_pay1 = _; rw [show pt1 0 = (⟨0, hn⟩ : Fin cfg1.N) from pt1_val ⟨0, hn⟩]
  | succ n =>
    show step1 V c (pt1 (n + 1)) (if (n + 1) % 8 = 0 then k1_pay1 else acc1 V c n) = _
    rw [if_pos h, show pt1 (n + 1) = (⟨n + 1, hn⟩ : Fin cfg1.N) from pt1_val ⟨n + 1, hn⟩]

theorem acc1_next (c : Dev nD) (t : Fin cfg1.N) (h : t.val % 8 ≠ 0) :
    acc1 V c t.val = step1 V c t (acc1 V c (t.val - 1)) := by
  obtain ⟨n, hn⟩ := t
  cases n with
  | zero => exact absurd (Nat.zero_mod 8) h
  | succ n =>
    show step1 V c (pt1 (n + 1)) (if (n + 1) % 8 = 0 then k1_pay1 else acc1 V c n) = _
    rw [if_neg h, show pt1 (n + 1) = (⟨n + 1, hn⟩ : Fin cfg1.N) from pt1_val ⟨n + 1, hn⟩]
    rfl

/-! ## The body's two conditions, decided over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, exactly off a run's last point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬cond1_1 (grid1.coords t) → cfg1.idle 4 (grid1.coords t) = true := by decide +kernel
theorem noflush1_4 : ∀ t : Fin cfg1.N, ¬cond1_1 (grid1.coords t) → (cfg1.win 4).flush t = false := by decide +kernel
theorem live1_4 : ∀ t : Fin cfg1.N, cond1_1 (grid1.coords t) → cfg1.idle 4 (grid1.coords t) = false := by decide +kernel

/-! ## The region invariant -/

/-- The scratch accumulator as a memref. -/
abbrev accM : Memref sig .tc .vmem S512x2048 .f32 := Memref.whole cc1_scratch0

/-- The core's scoped buffers no window of this region stages: the other pipeline's four staging buffers, which
    this region never touches, each at some contents, beside the accumulator's own assertion `X`. -/
def rest1 (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ X)

/-- What the launch hands the region: those buffers, the accumulator at some contents, the generator register. -/
theorem PhiA1_eq (c : Dev nD) :
    (Pipeline.ΦA spec1 c : sProp 𝕄)
      = iprop(rest1 c (iprop(∃ d, owns (c : Thread nD τ) accM fullShare d)) ∗ (∃ r, prngReg c r)) := by
  unfold Pipeline.ΦA rest1; rw [scopedRest1_eq]; simp only [accM, owns_whole]; try rfl

/-- The invariant before the point numbered `n`: before the first point what the launch hands over; afterwards
    the same with the accumulator at what the point before left. -/
def Phi1 (c : Dev nD) : ℕ → sProp 𝕄
  | 0 => Pipeline.ΦA spec1 c
  | n + 1 => iprop(rest1 c (owns (c : Thread nD τ) accM fullShare (acc1 V c n)) ∗ (∃ r, prngReg c r))

theorem Phi1_zero (c : Dev nD) (n : ℕ) (h : n = 0) : Phi1 V c n = Pipeline.ΦA spec1 c := by subst h; rfl
theorem Phi1_succ (c : Dev nD) (n : ℕ) :
    Phi1 V c (n + 1) = iprop(rest1 c (owns (c : Thread nD τ) accM fullShare (acc1 V c n)) ∗ (∃ r, prngReg c r)) := rfl
theorem Phi1_pos (c : Dev nD) (n : ℕ) (h : n ≠ 0) :
    Phi1 V c n = iprop(rest1 c (owns (c : Thread nD τ) accM fullShare (acc1 V c (n - 1))) ∗ (∃ r, prngReg c r)) := by
  cases n with
  | zero => exact absurd rfl h
  | succ n => rfl

/-! ## The proof data -/

/-- The proof data of pipeline 1 on core `c`, at entry contents `V`: the arrays as the region finds them;
    after the body every input's buffer at its block and the output's at the accumulator (consulted only
    at a run's last point); the invariant carries the accumulator; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => acc1 V c t.val
  Φ t := Phi1 V c t.val
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = acc1 V c t.val := by dsimp only [dat1]
theorem dat1_Phi (c : Dev nD) (t : Fin (cfg1.N + 1)) : (dat1 V c).Φ t = Phi1 V c t.val := by dsimp only [dat1]

/-- Every input window's current buffer holds its block of the entry contents at every point: each is fetched at
    every point and the body leaves it in place. -/
theorem dat1_before_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)
theorem dat1_before_3 (c : Dev nD) (t : Fin cfg1.N) (d) : (dat1 V c).before 3 t d = blk1 V c 3 t :=
  ((dat1 V c).before_in_eq_fetched 3 rfl (fun _ => rfl) (fun _ _ _ => rfl)
      (fun t => by rw [dat1_after_3]; unfold Dat.blockOf blk1; rw [dat1_A]; try rfl) t d).trans
    (by unfold Dat.fetched Dat.blockOf blk1; rw [dat1_A]; try rfl)

/-! ## The body obligation -/

set_option maxHeartbeats 4000000 in
/-- The body at any point, by the point's place in its run. The inputs' buffers hold their blocks; the invariant
    hands the body the accumulator at what the point before left (at anything before the very first point, and its
    contents are not needed at a run's first point, where it is reset) and takes it back at this point's contents;
    the output window's buffer is handed back untouched except at a run's last point, where it receives the
    accumulator; nothing is owed throughout. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t
        ∗ (dat1 V c).leavesExact 3 t ∗ (dat1 V c).leavesExact 4 t)) := by
  simp only [dat1_before_0, dat1_before_1, dat1_before_2, dat1_before_3]
  rw [show (dat1 V c).owesAt () t.succ = (dat1 V c).owesAt () t.castSucc from rfl]
  rw [dat1_Phi, dat1_Phi, show (t.succ : Fin (cfg1.N + 1)).val = t.val + 1 from rfl,
    show (t.castSucc : Fin (cfg1.N + 1)).val = t.val from rfl, Phi1_succ]
  rw [show (dat1 V c).leavesExact 0 t = owns (c : Thread nD τ) (st1_0 t) fullShare ((dat1 V c).after 0 t) from by
      unfold Dat.leavesExact; rw [live1_0 t], dat1_after_0]
  rw [show (dat1 V c).leavesExact 1 t = owns (c : Thread nD τ) (st1_1 t) fullShare ((dat1 V c).after 1 t) from by
      unfold Dat.leavesExact; rw [live1_1 t], dat1_after_1]
  rw [show (dat1 V c).leavesExact 2 t = owns (c : Thread nD τ) (st1_2 t) fullShare ((dat1 V c).after 2 t) from by
      unfold Dat.leavesExact; rw [live1_2 t], dat1_after_2]
  rw [show (dat1 V c).leavesExact 3 t = owns (c : Thread nD τ) (st1_3 t) fullShare ((dat1 V c).after 3 t) from by
      unfold Dat.leavesExact; rw [live1_3 t], dat1_after_3]
  have hN : t.val < 128 := lt_of_lt_of_eq t.isLt N_1
  by_cases h7 : t.val % 8 = 7
  · -- a run's last point
    have h0 : ¬t.val % 8 = 0 := by omega
    have hz : t.val ≠ 0 := by omega
    rw [show (dat1 V c).leavesExact 4 t = owns (c : Thread nD τ) (st1_4 t) fullShare ((dat1 V c).after 4 t) from by
        unfold Dat.leavesExact; rw [live1_4 t ((hcond1_1 t).mpr h7)], dat1_after_4]
    rw [acc1_next V c t h0, Phi1_pos V c _ hz]
    unfold step1 rest1
    iintro ⟨⟨⟨Ha, Hb, Hc, Hd, Hs⟩, Hg⟩, Ho, ⟨%d0, H0⟩, ⟨%d1, H1⟩, ⟨%d2, H2⟩, ⟨%d3, H3⟩, ⟨%d4, H4⟩⟩
    iapply (run_last c Set.univ (grid1.coords t) _ _ _ _ _ _ _ _ _ _ _ _ (fun h => h0 ((hcond1_0 t).mp h)) ((hcond1_1 t).mpr h7)
      (blk1 V c 0 t) (blk1 V c 1 t) (blk1 V c 2 t) (blk1 V c 3 t) (acc1 V c (t.val - 1)) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Ha Hb Hc Hd Hs Hg]
    · isplitl [Ha Hb Hc Hd Hs]
      · isplitl [Ha]; · iexact Ha
        isplitl [Hb]; · iexact Hb
        isplitl [Hc]; · iexact Hc
        isplitl [Hd]; · iexact Hd
        iexact Hs
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idle1_4 t (fun h => h7 ((hcond1_1 t).mp h)))
        (noflush1_4 t (fun h => h7 ((hcond1_1 t).mp h)))]
    by_cases h0 : t.val % 8 = 0
    · -- a run's first point: the accumulator's previous contents are not needed
      rw [acc1_first V c t h0]
      unfold step1
      have hfirst : Phi1 V c t.val ⊢ (iprop(rest1 c (iprop(∃ d, owns (c : Thread nD τ) accM fullShare d)) ∗ (∃ r, prngReg c r)) : sProp 𝕄) := by
        by_cases hz : t.val = 0
        · rw [Phi1_zero V c _ hz, PhiA1_eq]
        · rw [Phi1_pos V c _ hz]; unfold rest1
          iintro ⟨⟨Ha, Hb, Hc, Hd, Hs⟩, Hg⟩
          isplitl [Ha Hb Hc Hd Hs]
          · isplitl [Ha]; · iexact Ha
            isplitl [Hb]; · iexact Hb
            isplitl [Hc]; · iexact Hc
            isplitl [Hd]; · iexact Hd
            iexists _; iexact Hs
          iexact Hg
      unfold rest1 at hfirst ⊢
      iintro ⟨HΦ, Ho, ⟨%d0, H0⟩, ⟨%d1, H1⟩, ⟨%d2, H2⟩, ⟨%d3, H3⟩, ⟨%d4, H4⟩⟩
      ihave HΦ' := hfirst $$ HΦ
      icases HΦ' with ⟨⟨Ha, Hb, Hc, Hd, Hs⟩, Hg⟩
      iapply (run_first c Set.univ (grid1.coords t) _ _ _ _ _ _ _ _ _ _ _ _ ((hcond1_0 t).mpr h0) (fun h => h7 ((hcond1_1 t).mp h))
        (blk1 V c 0 t) (blk1 V c 1 t) (blk1 V c 2 t) (blk1 V c 3 t) ((dat1 V c).before 4 t d4) _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Ha Hb Hc Hd Hs Hg]
      · isplitl [Ha Hb Hc Hd Hs]
        · isplitl [Ha]; · iexact Ha
          isplitl [Hb]; · iexact Hb
          isplitl [Hc]; · iexact Hc
          isplitl [Hd]; · iexact Hd
          iexact Hs
        iexact Hg
      isplitl [Ho]; · iexact Ho
      isplitl [H0]; · iexact H0
      isplitl [H1]; · iexact H1
      isplitl [H2]; · iexact H2
      isplitl [H3]; · iexact H3
      iexists _; iexact H4
    · -- a middle point
      have hz : t.val ≠ 0 := fun e => h0 (by rw [e])
      rw [acc1_next V c t h0, Phi1_pos V c _ hz]
      unfold step1 rest1
      iintro ⟨⟨⟨Ha, Hb, Hc, Hd, Hs⟩, Hg⟩, Ho, ⟨%d0, H0⟩, ⟨%d1, H1⟩, ⟨%d2, H2⟩, ⟨%d3, H3⟩, ⟨%d4, H4⟩⟩
      iapply (run_mid c Set.univ (grid1.coords t) _ _ _ _ _ _ _ _ _ _ _ _ (fun h => h0 ((hcond1_0 t).mp h)) (fun h => h7 ((hcond1_1 t).mp h))
        (blk1 V c 0 t) (blk1 V c 1 t) (blk1 V c 2 t) (blk1 V c 3 t) ((dat1 V c).before 4 t d4) (acc1 V c (t.val - 1)) _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Ha Hb Hc Hd Hs Hg]
      · isplitl [Ha Hb Hc Hd Hs]
        · isplitl [Ha]; · iexact Ha
          isplitl [Hb]; · iexact Hb
          isplitl [Hc]; · iexact Hc
          isplitl [Hd]; · iexact Hd
          iexact Hs
        iexact Hg
      isplitl [Ho]; · iexact Ho
      isplitl [H0]; · iexact H0
      isplitl [H1]; · iexact H1
      isplitl [H2]; · iexact H2
      isplitl [H3]; · iexact H3
      iexists _; iexact H4

/-- The body obligation of region 1, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem phi1_in (c : Dev nD) : (Pipeline.ΦA spec1 c : sProp 𝕄) ⊢ (dat1 V c).Φ 0 := by
  rw [dat1_Phi]; try exact .rfl

/-- After the last point the invariant gives back what the launch handed over, the accumulator's contents forgotten. -/
theorem phi1_out (c : Dev nD) : (dat1 V c).Φ (Fin.last cfg1.N) ⊢ (Pipeline.ΦA spec1 c : sProp 𝕄) := by
  rw [dat1_Phi, Phi1_pos V c _ (by rw [Fin.val_last]; exact (by decide : grid1.N ≠ 0)), PhiA1_eq]
  unfold rest1
  iintro ⟨⟨Ha, Hb, Hc, Hd, Hs⟩, Hg⟩
  isplitl [Ha Hb Hc Hd Hs]
  · isplitl [Ha]; · iexact Ha
    isplitl [Hb]; · iexact Hb
    isplitl [Hc]; · iexact Hc
    isplitl [Hd]; · iexact Hd
    iexists _; iexact Hs
  iexact Hg

end Cert.Kernel.Hand

end
-- ==== Proof.K.Launch.lean ====
/-
  The launch of the two-region program, at any float instance.

  @main is three items in a row: region 0 (the degree pass, which leaves in a 4096×1 column the reciprocal
  shifted row sums of the first argument), one host line (the reshape of that column into a 1×4096 row), and
  region 1 (the fused mixture and matrix product, which reads the three arguments and the row and writes the
  result array).

  Between two items core c holds every unscoped buffer whole at a NAMED valuation, its generator register at
  some state, and owes no unit. The valuations are a fold from the launch memory m:

    W0 — the launch contents;
    W1 — W0 with region 0's two arrays at what its pipeline leaves: the first argument as found (an input
         array is never written), the column with the write-back of every grid point folded in;
    W2 — W1 after the reshape: the row buffer holds the column's elements in row-major order, every other
         buffer what it held;
    W3 — W2 with region 1's five arrays at what its pipeline leaves: the four inputs as found, the result
         array with every write-back folded in.

  Each region's proof data are taken at the valuation the region is entered from: W0 for region 0, W2 for
  region 1. Both regions enter and leave through the class invariant (the scoped buffers no window stages,
  each at some contents, and the generator register at some state); region 1's carried accumulator is
  inside its own invariant between its first and last point and forgotten at both ends.

  The run theorem says: from m with every counter at zero, every weakly fair execution of @main terminates,
  and the final memory holds W3 at every unscoped buffer of every core. The frame (each argument ends as
  launched) and the value of the result array (region 1's output array after its last write-back) are that
  statement read at four buffers.
-/
import proofs.«159127_j75093208203291_1_alg».proof.Proof.K.Body0
import proofs.«159127_j75093208203291_1_alg».proof.Proof.K.Body1
import proofs.«159127_j75093208203291_1_alg».proof.Proof.Gen.Kernel.Regions
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the four boundaries -/

/-- every buffer of core c at launch -/
abbrev W0 (c : Dev nD) : Valuation τ sig (Elt F) := fun b => m (c, b)
/-- the same, read at the TensorCore's references: what region 0 finds -/
abbrev V0 (c : Dev nD) (b : Ref sig .tc) : Buf (Elt F) ((c : Thread nD τ).loc b) := W0 m c b

/-- After region 0: its two arrays at what the pipeline leaves after its last point, every other buffer as
    launched. -/
def W1 (c : Dev nD) : Valuation τ sig (Elt F) :=
  Pipeline.withArrays spec0 c (W0 m c) fun w => (dat0 (V0 m) c).arrAt w cfg0.N
/-- the same at the TensorCore's references -/
abbrev V1 (c : Dev nD) (b : Ref sig .tc) : Buf (Elt F) ((c : Thread nD τ).loc b) := W1 m c b

/-- After the reshape: the row buffer rewritten from the column, every other buffer as region 0 left it. -/
def W2 (c : Dev nD) : Valuation τ sig (Elt F) := StableHlo.after hostOps1 (W1 m c)
/-- the same at the TensorCore's references: what region 1 finds -/
abbrev V2 (c : Dev nD) (b : Ref sig .tc) : Buf (Elt F) ((c : Thread nD τ).loc b) := W2 m c b

/-- After region 1: its five arrays at what the pipeline leaves after its last point, every other buffer as
    the reshape left it. -/
def W3 (c : Dev nD) : Valuation τ sig (Elt F) :=
  Pipeline.withArrays spec1 c (W2 m c) fun w => (dat1 (V2 m) c).arrAt w cfg1.N

/-- Both pipelines' proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

/-! ## What each item changes, and what it leaves -/

/-- After region 0 each of its arrays holds what its pipeline leaves. -/
theorem W1_arr (c : Dev nD) (w : Fin cfg0.W) :
    W1 m c (Proc.devRef .tc (Pipeline.arrRef spec0 w)) = (dat0 (V0 m) c).arrAt w cfg0.N :=
  Pipeline.withArrays_arr spec0 launch0.win.arr_inj c _ _ w
/-- Region 0 changes no buffer that is not one of its arrays. -/
theorem W1_off (c : Dev nD) (b : Ref sig .tc) (hb : ∀ w, Pipeline.arrRef spec0 w ≠ b) :
    W1 m c (Proc.devRef .tc b) = W0 m c (Proc.devRef .tc b) :=
  Pipeline.withArrays_of_ne spec0 c _ _ b hb
/-- The reshape changes the row buffer only. -/
theorem W2_off (c : Dev nD) (b : Ref sig .tc) (hb : b ∉ hostOps1_W) :
    W2 m c (Proc.devRef .tc b) = W1 m c (Proc.devRef .tc b) :=
  StableHlo.after_of_writes_sub hostOps1 _ hostOps1_writes hb
/-- After region 1 each of its arrays holds what its pipeline leaves. -/
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
/-- Region 1 changes no buffer that is not one of its arrays. -/
theorem W3_off (c : Dev nD) (b : Ref sig .tc) (hb : ∀ w, Pipeline.arrRef spec1 w ≠ b) :
    W3 m c (Proc.devRef .tc b) = W2 m c (Proc.devRef .tc b) :=
  Pipeline.withArrays_of_ne spec1 c _ _ b hb

/-- An input array of region 0 leaves the region as it was found. -/
theorem thru0 (V : (c : Dev nD) → (b : Ref sig .tc) → Buf (Elt F) ((c : Thread nD τ).loc b)) (c : Dev nD)
    (w : Fin cfg0.W) (hw : (cfg0.win w).isOut = false) :
    (dat0 V c).arrAt w cfg0.N = V c (Pipeline.arrRef spec0 w) :=
  ((dat0 V c).arrAt_in w hw _).trans (dat0_A V c w)
/-- An input array of region 1 leaves the region as it was found. -/
theorem thru1 (V : (c : Dev nD) → (b : Ref sig .tc) → Buf (Elt F) ((c : Thread nD τ).loc b)) (c : Dev nD)
    (w : Fin cfg1.W) (hw : (cfg1.win w).isOut = false) :
    (dat1 V c).arrAt w cfg1.N = V c (Pipeline.arrRef spec1 w) :=
  ((dat1 V c).arrAt_in w hw _).trans (dat1_A V c w)

/-! ### What region 1 finds -/

/-- The first argument reaches region 1 as launched: region 0 only reads it, the reshape does not name it. -/
theorem V2_arg0 (c : Dev nD) : V2 m c main_arg0 = m ((c : Thread nD τ).loc main_arg0) :=
  calc V2 m c main_arg0
      = V1 m c main_arg0 := W2_off m c main_arg0 (by decide)
    _ = (dat0 (V0 m) c).arrAt 0 cfg0.N := W1_arr m c 0
    _ = V0 m c main_arg0 := thru0 (V0 m) c 0 rfl
    _ = m ((c : Thread nD τ).loc main_arg0) := rfl
/-- The second argument reaches region 1 as launched: nothing before it names it. -/
theorem V2_arg1 (c : Dev nD) : V2 m c main_arg1 = m ((c : Thread nD τ).loc main_arg1) :=
  calc V2 m c main_arg1
      = V1 m c main_arg1 := W2_off m c main_arg1 (by decide)
    _ = V0 m c main_arg1 := W1_off m c main_arg1 (by decide)
    _ = m ((c : Thread nD τ).loc main_arg1) := rfl
/-- The third argument reaches region 1 as launched: nothing before it names it. -/
theorem V2_arg2 (c : Dev nD) : V2 m c main_arg2 = m ((c : Thread nD τ).loc main_arg2) :=
  calc V2 m c main_arg2
      = V1 m c main_arg2 := W2_off m c main_arg2 (by decide)
    _ = V0 m c main_arg2 := W1_off m c main_arg2 (by decide)
    _ = m ((c : Thread nD τ).loc main_arg2) := rfl
/-- The row region 1 reads is the column region 0 left, its 4096 elements in the same order. -/
theorem V2_invd (c : Dev nD) :
    V2 m c main_v1 = fun i => shapeCast S1x4096 ((dat0 (V0 m) c).arrAt 1 cfg0.N) shapeCasts_S4096x1_S1x4096 i := by
  show StableHlo.after hostOps1 (W1 m c) (Proc.devRef .tc main_v1) = _
  after_results
  rw [show W1 m c (Proc.devRef .tc main_v0) = (dat0 (V0 m) c).arrAt 1 cfg0.N from W1_arr m c 1]
  rfl

/-! ### What the run ends at -/

/-- Each argument ends as launched: it is an input array of region 1, which leaves it as found, and it reached
    region 1 as launched. -/
theorem W3_arg0 (c : Dev nD) : W3 m c (Proc.devRef .tc main_arg0) = m ((c : Thread nD τ).loc main_arg0) :=
  (W3_arr m c 0).trans <| (thru1 (V2 m) c 0 rfl).trans (V2_arg0 m c)
theorem W3_arg1 (c : Dev nD) : W3 m c (Proc.devRef .tc main_arg1) = m ((c : Thread nD τ).loc main_arg1) :=
  (W3_arr m c 1).trans <| (thru1 (V2 m) c 1 rfl).trans (V2_arg1 m c)
theorem W3_arg2 (c : Dev nD) : W3 m c (Proc.devRef .tc main_arg2) = m ((c : Thread nD τ).loc main_arg2) :=
  (W3_arr m c 3).trans <| (thru1 (V2 m) c 3 rfl).trans (V2_arg2 m c)
/-- The result array ends at what region 1's pipeline leaves in its output array. -/
theorem W3_out (c : Dev nD) : W3 m c (Proc.devRef .tc main_v2) = (dat1 (V2 m) c).arrAt 4 cfg1.N :=
  W3_arr m c 4

/-! ## The thread state between two items -/

/-- No core owes another anything in this program: no level is assigned. -/
abbrev lvls : GSem nD τ sig → Finset Unit := fun _ => ∅
/-- The level of a pair that is never assigned one. -/
abbrev lev : GSem nD τ sig → Unit → ℕ := fun _ _ => 0

/-- What rides beside the buffers through every item: the core's generator register at some state, and the
    core owing nothing. -/
abbrev Idle (c : Dev nD) : sProp 𝕄 :=
  iprop((∃ r, prngReg c r) ∗ ∃ W, owes (c : Thread nD τ) (0 : CellTallies nD τ sig Unit) W)

/-- The thread state at a boundary whose contents are W: every unscoped buffer whole at W, the register, nothing owed. -/
abbrev At (W : Dev nD → Valuation τ sig (Elt F)) (c : Dev nD) : sProp 𝕄 :=
  iprop(StableHlo.held (c : Thread nD τ) (Pipeline.ucRefs τ sig) (W c) ∗ Idle c)

/-- The thread state at a boundary, with the nothing-owed part set apart (the form the run ends in). -/
theorem At_last (W : Dev nD → Valuation τ sig (Elt F)) (c : Dev nD) :
    At W c ⊢ (iprop((StableHlo.held (c : Thread nD τ) (Pipeline.ucRefs τ sig) (W c) ∗ ∃ r, prngReg c r)
      ∗ ∃ W', owes (c : Thread nD τ) (0 : CellTallies nD τ sig Unit) W') : sProp 𝕄) := by
  iintro ⟨Hb, Hg, Ho⟩
  isplitl [Hb Hg]
  · isplitl [Hb]
    · iexact Hb
    iexact Hg
  iexact Ho

/-! ## The small entailments every region's record is made of -/

/-- A core owing nothing is what a pipeline's loop holds before a point at which the proof data owe nothing and
    bound no recorded pair. -/
theorem owesAt_of_nothing {cfg : Cfg sig Λ₀} {c : Dev nD} (d : Dat τ (Elt F) Unit ℕ (UR sig nD τ) ℕ cfg c)
    (t : Fin (cfg.N + 1)) (ho : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin
  rw [ho]
  iintro ⟨%W, H⟩
  iexists W
  isplitr
  · ipureintro; intro x _; exact Or.inl (hr ▸ Set.mem_univ x)
  iexact H

/-- And back: what the loop holds after a point at which nothing is owed is a core owing nothing. -/
theorem nothing_of_owesAt {cfg : Cfg sig Λ₀} {c : Dev nD} (d : Dat τ (Elt F) Unit ℕ (UR sig nD τ) ℕ cfg c)
    (t : Fin (cfg.N + 1)) (ho : d.owed t = 0) :
    d.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

/-- The class invariant is made of the generator register and the scoped buffers no window stages; anything
    else offered with them is dropped. -/
theorem classIn {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  iexact Hg

/-- The class invariant gives both back; a kernel with no semaphore of its own has none to return. -/
theorem classOut {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hs, Hg⟩
  isplitl [Hg]
  · iexact Hg
  isplitr
  · iempintro
  iexact Hs

/-- The shape of a region's entry. The buffers B split into the arrays A and the bypassing rest Zr; the
    register G enters the invariant; the owed part O is restated as O'; tables T cost nothing; what else the
    entry is offered (S, L) is not needed. -/
theorem enter_shape {B A Zr G O O' T S L : sProp 𝕄} (hB : B ⊢ iprop(A ∗ Zr)) (hO : O ⊢ O')
    (hT : (BI.emp : sProp 𝕄) ⊢ T) :
    iprop((B ∗ G ∗ O) ∗ S ∗ L) ⊢ |={Set.univ}=> iprop(A ∗ T ∗ O' ∗ G ∗ Zr) := by
  iintro ⟨⟨Hb, Hg, Ho⟩, -, -⟩
  imodintro
  ihave Hsplit := hB $$ Hb
  icases Hsplit with ⟨Ha, Hz⟩
  isplitl [Ha]
  · iexact Ha
  isplitr
  · iapply hT; iempintro
  isplitl [Ho]
  · iapply hO; iexact Ho
  isplitl [Hg]
  · iexact Hg
  iexact Hz

/-- The shape of a region's exit: the arrays and the bypassing rest are the buffers again, at the new
    contents; the register comes back; the owed part is restated. -/
theorem leave_shape {A Zr B G O O' : sProp 𝕄} (hB : iprop(A ∗ Zr) ⊢ B) (hO : O' ⊢ O) :
    iprop(A ∗ O' ∗ G ∗ Zr) ⊢ |={Set.univ}=> iprop(B ∗ G ∗ O) := by
  iintro ⟨Ha, Ho, Hg, Hz⟩
  imodintro
  isplitl [Ha Hz]
  · iapply hB
    isplitl [Ha]
    · iexact Ha
    iexact Hz
  isplitl [Hg]
  · iexact Hg
  iapply hO; iexact Ho

/-! ## The three items as segments -/

-- a pipeline's configuration pinned at its admissible tables is the printed configuration only after unfolding
-- definitions inside types
set_option backward.isDefEq.respectTransparency.types false in
/-- Region 0 between the launch contents and W1. Entry: the two arrays are split out of the unscoped buffers at
    the contents found, the four other unscoped buffers bypass the region, the register enters the class
    invariant. Exit: the arrays come back at what the pipeline leaves, which is W1 by definition. -/
def reg0 : Pipeline.RegionSeg (pcfgs (F := F)) adm (pdats m) () defs₀ Variants.none lvls lev 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ lvls lev 0 fun _ _ => rfl
  pre := At (W0 m)
  post := At (W1 m)
  X c := iprop(∃ r, prngReg c r)
  Y c := iprop(∃ r, prngReg c r)
  Z c := Pipeline.unscopedRest (Ix := Unit) (Name := ℕ) (U := UR sig nD τ) (Lvl := ℕ) spec0 c (V0 m c)
  hentry c :=
    enter_shape
      ((Entails.of_eq (Pipeline.unscopedBufs_held c (W0 m c)).symm).trans
        (Pipeline.arrays_of_unscopedBufs (p := 0) (pcfgs (F := F)) adm (pdats m) launch0.win launch0.arr_whole c
          ((pdats m 0 c).share_full fun _ => rfl) (V0 m c) fun _ => rfl))
      (owesAt_of_nothing (pdats m 0 c) 0 rfl rfl)
      (by unfold Pipeline.prefHeld; rw [show (Finset.univ : Finset (Fin 0)) = ∅ from rfl, BI.bigSep_empty])
  hin c := classIn spec0 c _
  hout c := classOut spec0 c
  hexit c :=
    leave_shape
      ((Pipeline.unscopedBufs_of_arrays (p := 0) (pcfgs (F := F)) adm (Ix := Unit) (Name := ℕ) (U := UR sig nD τ) (Lvl := ℕ)
          launch0.win launch0.arr_whole c (pdats m) ((pdats m 0 c).share_full fun _ => rfl)
          (V0 m c) (V1 m c) ((pdats m 0 c).arrAt · cfg0.N) (fun w => (W1_arr m c w).symm)
          (fun b hb => W1_off m c b fun w e => hb (Finset.mem_image.mpr ⟨w, Finset.mem_univ _, e⟩))).trans
        (Entails.of_eq (Pipeline.unscopedBufs_held c (W1 m c))))
      (nothing_of_owesAt (pdats m 0 c) _ rfl)

/-- The host line between W1 and W2: the reshape over the unscoped buffers, the register and the nothing owed
    riding along; it ends at the buffers after the reshape, which is W2 by definition. -/
def reshapeSeg : Pipeline.HostSeg (Name := ℕ) (U := UR sig nD τ) (pcfgs (F := F)) defs₀ Variants.none lvls lev :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) Idle

-- as for region 0
set_option backward.isDefEq.respectTransparency.types false in
/-- Region 1 between W2 and W3. Entry: the five arrays are split out of the unscoped buffers at the contents
    found, the column (now dead) bypasses the region, the register enters the class invariant, from which the
    region's own invariant before its first point follows. Exit: the region's invariant after its last point
    gives the class invariant back, the arrays come back at what the pipeline leaves, which is W3 by definition. -/
def reg1 : Pipeline.RegionSeg (pcfgs (F := F)) adm (pdats m) () defs₀ Variants.none lvls lev 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ lvls lev 1 fun _ _ => rfl
  pre := At (W2 m)
  post := At (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c :=
    enter_shape
      ((Entails.of_eq (Pipeline.unscopedBufs_held c (W2 m c)).symm).trans
        (Pipeline.arrays_of_unscopedBufs (p := 1) (pcfgs (F := F)) adm (pdats m) launch1.win launch1.arr_whole c
          ((pdats m 1 c).share_full fun _ => rfl) (V2 m c) fun _ => rfl))
      (owesAt_of_nothing (pdats m 1 c) 0 rfl rfl)
      (by unfold Pipeline.prefHeld; rw [show (Finset.univ : Finset (Fin 0)) = ∅ from rfl, BI.bigSep_empty])
  hin c := (classIn spec1 c _).trans (phi1_in (V2 m) c)
  hout c := (phi1_out (V2 m) c).trans (classOut spec1 c)
  hexit c :=
    leave_shape
      ((Pipeline.unscopedBufs_of_arrays (p := 1) (pcfgs (F := F)) adm (Ix := Unit) (Name := ℕ) (U := UR sig nD τ) (Lvl := ℕ)
          launch1.win launch1.arr_whole c (pdats m) ((pdats m 1 c).share_full fun _ => rfl)
          (V2 m c) (fun b => W3 m c b) ((pdats m 1 c).arrAt · cfg1.N) (fun w => (W3_arr m c w).symm)
          (fun b hb => W3_off m c b fun w e => hb (Finset.mem_image.mpr ⟨w, Finset.mem_univ _, e⟩))).trans
        (Entails.of_eq (Pipeline.unscopedBufs_held c (W3 m c))))
      (nothing_of_owesAt (pdats m 1 c) _ rfl)

/-! ## The run -/

-- as for the regions: the statement's program and tables meet the pinned ones only after unfolding definitions
-- inside types
set_option backward.isDefEq.respectTransparency.types false in
/-- From the launch memory m with every counter at zero, every weakly fair execution of @main terminates, and the
    final memory holds W3 at every unscoped buffer of every core. The launch deals each core its unscoped buffers
    at m, its generator register and nothing owed, which is the thread state at W0; the three segments carry it to
    the thread state at W3; that state read against the final memory is the claim. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ Variants.none lvls lev m ρ main
    [.region (reg0 m), .host (reshapeSeg m), .region (reg1 m)]
    (fun c Q => by
      rw [main_segs adm (pdats m) () Variants.none lvls lev (reshapeSeg m) (reg0 m) (reg1 m) rfl c])
    (by simp only [Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro H
      imodintro
      isplitl [H]
      · iexact H
      iempintro)
    (T₀ := At (W0 m))
    (Tₙ := fun c => iprop(StableHlo.held (c : Thread nD τ) (Pipeline.ucRefs τ sig) (W3 m c) ∗ ∃ r, prngReg c r))
    (hch := ⟨fun _ => .rfl, fun _ => .rfl, fun _ => .rfl, fun c => At_last (W3 m) c⟩)
    (hinit := Pipeline.initEach lvls lev fun c => by
      rw [show unscopedBufs c (fun b => m ((c : Thread nD τ).loc b))
          = StableHlo.held (c : Thread nD τ) (Pipeline.ucRefs τ sig) (W0 m c) from Pipeline.unscopedBufs_held c (W0 m c)]
      iintro ⟨⟨Hb, -, Ho, -, Hg, -⟩, -⟩
      imodintro
      isplitl [Hb]
      · iexact Hb
      isplitl [Hg]
      · iexists _; iexact Hg
      iexists ∅; iexact Ho)
    (QY := fun c s => ∀ b ∈ Pipeline.ucRefs τ sig, s.mem (((c : Thread nD τ)).1, b) = W3 m c b)
    (hfin := fun c s' => by
      unfold StableHlo.held
      iintro ⟨⟨Hb, -⟩, HSI⟩
      imodintro
      iapply (pointsTo_read_all (Pipeline.ucRefs τ sig) (fun b => (((c : Thread nD τ)).1, b)) (W3 m c) s')
      isplitl [Hb]
      · iexact Hb
      iexact HSI)
    (hQ := fun _ h => h)

/-- An unscoped reference of the TensorCore is among the buffers the run theorem speaks of. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_arg0 (by decide))).trans (W3_arg0 m c),
     (h c _ (mem_ucRefs main_arg1 (by decide))).trans (W3_arg1 m c),
     (h c _ (mem_ucRefs main_arg2 (by decide))).trans (W3_arg2 m c)⟩) (run_all m ρ)

/-- The result array ends at region 1's output array after its last write-back, and every argument as launched. -/
theorem valued : θ_run defs (onTc (τ := τ) (main (F := F))) ⟨m, fun _ => 0, ρ⟩ (fun r => ∀ c : Dev nD,
      r.2.mem ((c.tc : Thread nD τ).loc main_v2) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_v2 (by decide))).trans (W3_out m c),
     (h c _ (mem_ucRefs main_arg0 (by decide))).trans (W3_arg0 m c),
     (h c _ (mem_ucRefs main_arg1 (by decide))).trans (W3_arg1 m c),
     (h c _ (mem_ucRefs main_arg2 (by decide))).trans (W3_arg2 m c)⟩) (run_all m ρ)

end Cert.Kernel.Hand

end
-- ==== Proof.KI.Body0.lean ====
/-
  Region 0 of the program: the degree pass. Its grid has 8 points; point `t` stages rows
  512·t … 512·t+511 of the adjacency matrix (all 4096 columns) and writes back the 512×1 column
  whose entry r is 1 / (Σ_k A[512·t + r, k] + 1).

  This module fixes the proof data of that pipeline at arbitrary entry contents `V` of the core's
  buffers: the input window's staging buffer holds its block of `V`'s matrix at every point, the
  output window's buffer holds the body's one stored value, a pure function (`k0_pay1`) of the
  loaded block, and nothing is carried from point to point. The body's triple is run once on
  abstract staging memrefs and then instantiated at every grid point.
-/
import proofs.«159127_j75093208203291_1_alg».proof.Proof.Gen.KernelIdeal.Launch
import proofs.«159127_j75093208203291_1_alg».proof.Proof.Gen.KernelIdeal.Skeleton
import proofs.«159127_j75093208203291_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Zero offsets, as the printed rectangles spell them. -/
theorem off2_zero : (![0, 0] : Fin 2 → Nat) = fun _ => 0 := by
  funext a; fin_cases a <;> rfl

/-- Window `w`'s block of the entry contents at point `t` (region 0). -/
def blk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The degree body on whole staging memrefs: it reads the row block `x0`, and leaves the output
    buffer at the reciprocal shifted row sums of `x0`, the input buffer as it was. -/
theorem run0 (c : Dev nD) (E : Set ℕ) (i : grid0.Coords)
    (arg1 : Memref sig .tc .vmem S512x4096 .f32) (harg1 : arg1.IsWhole)
    (arg2 : Memref sig .tc .vmem S512x1 .f32) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  rw [View.read_writes_eq_canon _ _ _ (fun y => ⟨_, List.mem_singleton_self _, View.mem_set_unit_zero off2_zero inb_S512x1_S512x1_0_0 y⟩),
    View.canon_unit_zero off2_zero]
  simp only [View.readAt_eq_ld, View.ld_unit_zero (S := S512x4096) off2_zero]

/-- The proof data of pipeline 0 on core `c`, at entry contents `V`: the arrays as the region finds
    them; after the body the input's buffer at its block, the output's at the body's stored value of that
    block; the invariant is the untouched scoped rest and the generator register; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => k0_pay1 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_0 (c : Dev nD) (t : Fin cfg0.N) : (dat0 V c).after 0 t = blk0 V c 0 t := by dsimp only [dat0]
theorem dat0_after_1 (c : Dev nD) (t : Fin cfg0.N) : (dat0 V c).after 1 t = k0_pay1 (blk0 V c 0 t) := by dsimp only [dat0]

/-- The input window's current buffer holds its block of the entry matrix at every point: it is
    fetched at every point and the body leaves it in place. -/
theorem dat0_before_0 (c : Dev nD) (t : Fin cfg0.N) (d) : (dat0 V c).before 0 t d = blk0 V c 0 t :=
  ((dat0 V c).before_in_eq_fetched 0 rfl (fun _ => rfl) (fun _ _ _ => rfl)
      (fun t => by rw [dat0_after_0]; unfold Dat.blockOf blk0; rw [dat0_A]; try rfl) t d).trans
    (by unfold Dat.fetched Dat.blockOf blk0; rw [dat0_A]; try rfl)

/-- The body obligation of region 0, at every point. -/
theorem body_obligation0 (c : Dev nD) :
    BodyObligation (dat0 (F := F) V c) (defs₀ (F := F)) Variants.none () Set.univ := fun t => by
  rw [bigSep_W0, bigSep_W0]
  show iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)))
  simp only [dat0_before_0]
  rw [show (dat0 V c).Φ t.succ = (dat0 V c).Φ t.castSucc from rfl,
    show (dat0 V c).owesAt () t.succ = (dat0 V c).owesAt () t.castSucc from rfl,
    dat0_after_0, dat0_after_1]
  iintro ⟨HΦ, Ho, ⟨%d0, H0⟩, ⟨%d1, H1⟩⟩
  iapply (run0 c Set.univ (grid0.coords t) _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

end Cert.KernelIdeal.Hand

end
-- ==== Proof.KI.Runs1.lean ====
/-
  The fused body of region 1 on abstract whole staging memrefs, in the three cases its two conditionals
  leave on the grid. With x0, x1, x2, x3 the loaded blocks of A, h, the reciprocal-degree row and W, and s the
  accumulator's contents when the body starts:
    first point of a run : the accumulator ends at  pay2 (x…) 0̂   (0̂ the stored zero splat `k1_pay1`),
    middle point         : the accumulator ends at  pay2 (x…) s,
    last point of a run  : the accumulator ends at  pay2 (x…) s, and the output buffer holds the same.
  Off the last point the output buffer is handed back untouched; the inputs are never written.
-/
import proofs.«159127_j75093208203291_1_alg».proof.Proof.Gen.KernelIdeal.Launch
import proofs.«159127_j75093208203291_1_alg».proof.Proof.Gen.KernelIdeal.Skeleton
import proofs.«159127_j75093208203291_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Zero offsets, as the printed rectangles spell them. -/
theorem zero_offsets : (![0, 0] : Fin 2 → Nat) = fun _ => 0 := by
  funext a; fin_cases a <;> rfl

/-- "This is a run's first point" as the body computes it from the grid coordinates. -/
abbrev cond1_0 (i : grid1.Coords) : Prop :=
  (Scalar.cmpi .ne (Scalar.extui (Scalar.cmpi .eq (BitVec.ofNat 32 (i 2).val) 0#32)) 0#32) = 1#1

/-- "This is a run's last point" as the body computes it. -/
abbrev cond1_1 (i : grid1.Coords) : Prop := k1_cond2 i = 1#1

set_option maxHeartbeats 1000000 in
/-- A middle point of a run. -/
theorem run_mid (c : Dev nD) (E : Set ℕ) (i : grid1.Coords)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc0 : ¬cond1_0 i) (hc1 : ¬cond1_1 i)
    (x0 x1 : Vec F S512x512 .f32) (x2 : Vec F S1x512 .f32) (x3 xo s : Vec F S512x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ owns (c : Thread nD τ) arg8 fullShare (k1_pay2 i x0 x2 x1 x3 s)) -∗ K ⟨⟩))
      ⊢ wp frame (wpE (defs₀ (F := F)) Variants.none c none) E
          (cc1__fused_kernel i arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
  obtain rfl := harg3.eq_unread hf0; obtain rfl := harg4.eq_unread hf1; obtain rfl := harg5.eq_unread hf2
  obtain rfl := harg6.eq_unread hf3; obtain rfl := harg7.eq_unread hfo; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [Ho]
  · iexists _; isplitr; · ipureintro; exact harg7.read_unread _
    iexact Ho
  iexists _; isplitr
  swap; · iexact Hs
  ipureintro
  rw [View.read_writes_eq_canon _ _ _ (fun y => ⟨_, List.mem_singleton_self _,
      View.mem_set_unit_zero zero_offsets inb_S512x2048_S512x2048_0_0 y⟩),
    View.canon_unit_zero zero_offsets]
  simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets]

set_option maxHeartbeats 1000000 in
/-- The first point of a run: the accumulator is reset, then updated. -/
theorem run_first (c : Dev nD) (E : Set ℕ) (i : grid1.Coords)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc0 : cond1_0 i) (hc1 : ¬cond1_1 i)
    (x0 x1 : Vec F S512x512 .f32) (x2 : Vec F S1x512 .f32) (x3 xo : Vec F S512x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare xo ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare xo
            ∗ owns (c : Thread nD τ) arg8 fullShare (k1_pay2 i x0 x2 x1 x3 k1_pay1)) -∗ K ⟨⟩))
      ⊢ wp frame (wpE (defs₀ (F := F)) Variants.none c none) E
          (cc1__fused_kernel i arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, Hs⟩, Hk⟩
  obtain rfl := harg3.eq_unread hf0; obtain rfl := harg4.eq_unread hf1; obtain rfl := harg5.eq_unread hf2
  obtain rfl := harg6.eq_unread hf3; obtain rfl := harg7.eq_unread hfo
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [Ho]
  · iexists _; isplitr; · ipureintro; exact harg7.read_unread _
    iexact Ho
  iexists _; isplitr
  swap; · iexact Hs
  ipureintro
  sl_unfold_words
  rw [View.read_writes_eq_canon _ _ _ (fun y => ⟨_, List.mem_cons.mpr (Or.inl rfl),
      View.mem_set_unit_zero zero_offsets inb_S512x2048_S512x2048_0_0 y⟩),
    View.canon_cons_unit_zero zero_offsets]
  simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets, View.readCov_unit_zero (S := S512x2048) _ zero_offsets]

set_option maxHeartbeats 1000000 in
/-- The last point of a run: the accumulator is updated and copied to the output buffer. -/
theorem run_last (c : Dev nD) (E : Set ℕ) (i : grid1.Coords)
    (arg3 : Memref sig .tc .vmem S512x512 .f32) (harg3 : arg3.IsWhole)
    (arg4 : Memref sig .tc .vmem S512x512 .f32) (harg4 : arg4.IsWhole)
    (arg5 : Memref sig .tc .vmem S1x512 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc0 : ¬cond1_0 i) (hc1 : cond1_1 i)
    (x0 x1 : Vec F S512x512 .f32) (x2 : Vec F S1x512 .f32) (x3 s : Vec F S512x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ owns (c : Thread nD τ) arg8 fullShare s
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay2 i x0 x2 x1 x3 s)
            ∗ owns (c : Thread nD τ) arg8 fullShare (k1_pay2 i x0 x2 x1 x3 s)) -∗ K ⟨⟩))
      ⊢ wp frame (wpE (defs₀ (F := F)) Variants.none c none) E
          (cc1__fused_kernel i arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%do_, %fo, -, Ho⟩, ⟨%fs, %hfs, Hs⟩, Hk⟩
  obtain rfl := harg3.eq_unread hf0; obtain rfl := harg4.eq_unread hf1; obtain rfl := harg5.eq_unread hf2
  obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [Ho]
  · iexists _; isplitr
    swap; · iexact Ho
    ipureintro
    sl_unfold_words
    rw [View.read_writes_eq_canon _ _ _ (fun y => ⟨_, List.mem_singleton_self _,
        View.mem_set_unit_zero zero_offsets inb_S512x2048_S512x2048_0_0 y⟩),
      View.canon_unit_zero zero_offsets]
    simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets, View.readCov_unit_zero (S := S512x2048) _ zero_offsets]
  iexists _; isplitr
  swap; · iexact Hs
  ipureintro
  sl_unfold_words
  rw [View.read_writes_eq_canon _ _ _ (fun y => ⟨_, List.mem_singleton_self _,
      View.mem_set_unit_zero zero_offsets inb_S512x2048_S512x2048_0_0 y⟩),
    View.canon_unit_zero zero_offsets]
  simp only [View.readAt_eq_ld, harg3.read_unread, harg4.read_unread, harg5.read_unread, harg6.read_unread,
    harg8.read_unread, View.ld_unit_zero (S := S512x512) zero_offsets, View.ld_unit_zero (S := S1x512) zero_offsets,
    View.ld_unit_zero (S := S512x2048) zero_offsets, View.readCov_unit_zero (S := S512x2048) _ zero_offsets]

end Cert.KernelIdeal.Hand

end
-- ==== Proof.KI.Body1.lean ====
/-
  Region 1 of the program: the fused mixture and matrix product. Its grid has 8 · 2 · 8 = 128 points,
  numbered t = 16·i + 8·j + k. Point t stages the 512×512 blocks (i, k) of A and of h, the 1×512 block k
  of the reciprocal-degree row, and the 512×2048 block (k, j) of W; a 512×2048 scratch accumulator lives
  across the eight points of a run (k = 0 … 7): it is reset at k = 0, updated at every point by the
  body's one payload (`k1_pay2`: previous accumulator plus the block product), and copied to the output
  window's buffer only at k = 7, the one point of the run at which the pipeline writes the output block back.

  The proof data therefore names the accumulator's contents after every point (`acc1`, by recursion over
  the point's number) and carries them in the region invariant; the output window is idle except at k = 7.
  The body obligation splits by the point's place in its run: first, middle, last.
-/
import proofs.«159127_j75093208203291_1_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks, points, and the accumulator -/

/-- Window `w`'s block of the entry contents at point `t` (region 1). -/
def blk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The point numbered `n` (numbers wrap at 128; only numbers below 128 are ever used). -/
def pt1 (n : ℕ) : Fin cfg1.N := ⟨n % 128, lt_of_lt_of_eq (Nat.mod_lt _ (by decide)) N_1.symm⟩

theorem pt1_val (t : Fin cfg1.N) : pt1 t.val = t :=
  Fin.ext (Nat.mod_eq_of_lt (lt_of_lt_of_eq t.isLt N_1))

/-- One point's update of the accumulator: the body's payload at the point's blocks. -/
def step1 (c : Dev nD) (t : Fin cfg1.N) (s : Vec F S512x2048 .f32) : Vec F S512x2048 .f32 :=
  k1_pay2 (grid1.coords t) (blk1 V c 0 t) (blk1 V c 2 t) (blk1 V c 1 t) (blk1 V c 3 t) s

/-- The accumulator after the point numbered `n`: at a run's first point the update of the zero splat,
    otherwise the update of what the point before left. -/
def acc1 (c : Dev nD) : ℕ → Vec F S512x2048 .f32
  | 0 => step1 V c (pt1 0) k1_pay1
  | n + 1 => step1 V c (pt1 (n + 1)) (if (n + 1) % 8 = 0 then k1_pay1 else acc1 c n)

theorem acc1_first (c : Dev nD) (t : Fin cfg1.N) (h : t.val % 8 = 0) :
    acc1 V c t.val = step1 V c t k1_pay1 := by
  obtain ⟨n, hn⟩ := t
  cases n with
  | zero => show step1 V c (pt1 0) k1_pay1 = _; rw [show pt1 0 = (⟨0, hn⟩ : Fin cfg1.N) from pt1_val ⟨0, hn⟩]
  | succ n =>
    show step1 V c (pt1 (n + 1)) (if (n + 1) % 8 = 0 then k1_pay1 else acc1 V c n) = _
    rw [if_pos h, show pt1 (n + 1) = (⟨n + 1, hn⟩ : Fin cfg1.N) from pt1_val ⟨n + 1, hn⟩]

theorem acc1_next (c : Dev nD) (t : Fin cfg1.N) (h : t.val % 8 ≠ 0) :
    acc1 V c t.val = step1 V c t (acc1 V c (t.val - 1)) := by
  obtain ⟨n, hn⟩ := t
  cases n with
  | zero => exact absurd (Nat.zero_mod 8) h
  | succ n =>
    show step1 V c (pt1 (n + 1)) (if (n + 1) % 8 = 0 then k1_pay1 else acc1 V c n) = _
    rw [if_neg h, show pt1 (n + 1) = (⟨n + 1, hn⟩ : Fin cfg1.N) from pt1_val ⟨n + 1, hn⟩]
    rfl

/-! ## The body's two conditions, decided over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are never idle; the output window is idle, and not written back, exactly off a run's last point. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬cond1_1 (grid1.coords t) → cfg1.idle 4 (grid1.coords t) = true := by decide +kernel
theorem noflush1_4 : ∀ t : Fin cfg1.N, ¬cond1_1 (grid1.coords t) → (cfg1.win 4).flush t = false := by decide +kernel
theorem live1_4 : ∀ t : Fin cfg1.N, cond1_1 (grid1.coords t) → cfg1.idle 4 (grid1.coords t) = false := by decide +kernel

/-! ## The region invariant -/

/-- The scratch accumulator as a memref. -/
abbrev accM : Memref sig .tc .vmem S512x2048 .f32 := Memref.whole cc1_scratch0

/-- The core's scoped buffers no window of this region stages: the other pipeline's four staging buffers, which
    this region never touches, each at some contents, beside the accumulator's own assertion `X`. -/
def rest1 (c : Dev nD) (X : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ X)

/-- What the launch hands the region: those buffers, the accumulator at some contents, the generator register. -/
theorem PhiA1_eq (c : Dev nD) :
    (Pipeline.ΦA spec1 c : sProp 𝕄)
      = iprop(rest1 c (iprop(∃ d, owns (c : Thread nD τ) accM fullShare d)) ∗ (∃ r, prngReg c r)) := by
  unfold Pipeline.ΦA rest1; rw [scopedRest1_eq]; simp only [accM, owns_whole]; try rfl

/-- The invariant before the point numbered `n`: before the first point what the launch hands over; afterwards
    the same with the accumulator at what the point before left. -/
def Phi1 (c : Dev nD) : ℕ → sProp 𝕄
  | 0 => Pipeline.ΦA spec1 c
  | n + 1 => iprop(rest1 c (owns (c : Thread nD τ) accM fullShare (acc1 V c n)) ∗ (∃ r, prngReg c r))

theorem Phi1_zero (c : Dev nD) (n : ℕ) (h : n = 0) : Phi1 V c n = Pipeline.ΦA spec1 c := by subst h; rfl
theorem Phi1_succ (c : Dev nD) (n : ℕ) :
    Phi1 V c (n + 1) = iprop(rest1 c (owns (c : Thread nD τ) accM fullShare (acc1 V c n)) ∗ (∃ r, prngReg c r)) := rfl
theorem Phi1_pos (c : Dev nD) (n : ℕ) (h : n ≠ 0) :
    Phi1 V c n = iprop(rest1 c (owns (c : Thread nD τ) accM fullShare (acc1 V c (n - 1))) ∗ (∃ r, prngReg c r)) := by
  cases n with
  | zero => exact absurd rfl h
  | succ n => rfl

/-! ## The proof data -/

/-- The proof data of pipeline 1 on core `c`, at entry contents `V`: the arrays as the region finds them;
    after the body every input's buffer at its block and the output's at the accumulator (consulted only
    at a run's last point); the invariant carries the accumulator; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => acc1 V c t.val
  Φ t := Phi1 V c t.val
  q _ := fullShare
  owed _ := 0

theorem dat1_A (c : Dev nD) (w : Fin cfg1.W) : (dat1 V c).A w = V c (Pipeline.arrRef spec1 w) := by
  dsimp only [dat1]
theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) : (dat1 V c).after 3 t = blk1 V c 3 t := by dsimp only [dat1]
theorem dat1_after_4 (c : Dev nD) (t : Fin cfg1.N) : (dat1 V c).after 4 t = acc1 V c t.val := by dsimp only [dat1]
theorem dat1_Phi (c : Dev nD) (t : Fin (cfg1.N + 1)) : (dat1 V c).Φ t = Phi1 V c t.val := by dsimp only [dat1]

/-- Every input window's current buffer holds its block of the entry contents at every point: each is fetched at
    every point and the body leaves it in place. -/
theorem dat1_before_0 (c : Dev nD) (t : Fin cfg1.N) (d) : (dat1 V c).before 0 t d = blk1 V c 0 t :=
  ((dat1 V c).before_in_eq_fetched 0 rfl (fun _ => rfl) (fun _ _ _ => rfl)
      (fun t => by rw [dat1_after_0]; unfold Dat.blockOf blk1; rw [dat1_A]; try rfl) t d).trans
    (by unfold Dat.fetched Dat.blockOf blk1; rw [dat1_A]; try rfl)
theorem dat1_before_1 (c : Dev nD) (t : Fin cfg1.N) (d) : (dat1 V c).before 1 t d = blk1 V c 1 t :=
  ((dat1 V c).before_in_eq_fetched 1 rfl (fun _ => rfl) (fun _ _ _ => rfl)
      (fun t => by rw [dat1_after_1]; unfold Dat.blockOf blk1; rw [dat1_A]; try rfl) t d).trans
    (by unfold Dat.fetched Dat.blockOf blk1; rw [dat1_A]; try rfl)
theorem dat1_before_2 (c : Dev nD) (t : Fin cfg1.N) (d) : (dat1 V c).before 2 t d = blk1 V c 2 t :=
  ((dat1 V c).before_in_eq_fetched 2 rfl (fun _ => rfl) (fun _ _ _ => rfl)
      (fun t => by rw [dat1_after_2]; unfold Dat.blockOf blk1; rw [dat1_A]; try rfl) t d).trans
    (by unfold Dat.fetched Dat.blockOf blk1; rw [dat1_A]; try rfl)
theorem dat1_before_3 (c : Dev nD) (t : Fin cfg1.N) (d) : (dat1 V c).before 3 t d = blk1 V c 3 t :=
  ((dat1 V c).before_in_eq_fetched 3 rfl (fun _ => rfl) (fun _ _ _ => rfl)
      (fun t => by rw [dat1_after_3]; unfold Dat.blockOf blk1; rw [dat1_A]; try rfl) t d).trans
    (by unfold Dat.fetched Dat.blockOf blk1; rw [dat1_A]; try rfl)

/-! ## The body obligation -/

set_option maxHeartbeats 4000000 in
/-- The body at any point, by the point's place in its run. The inputs' buffers hold their blocks; the invariant
    hands the body the accumulator at what the point before left (at anything before the very first point, and its
    contents are not needed at a run's first point, where it is reset) and takes it back at this point's contents;
    the output window's buffer is handed back untouched except at a run's last point, where it receives the
    accumulator; nothing is owed throughout. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t
        ∗ (dat1 V c).leavesExact 3 t ∗ (dat1 V c).leavesExact 4 t)) := by
  simp only [dat1_before_0, dat1_before_1, dat1_before_2, dat1_before_3]
  rw [show (dat1 V c).owesAt () t.succ = (dat1 V c).owesAt () t.castSucc from rfl]
  rw [dat1_Phi, dat1_Phi, show (t.succ : Fin (cfg1.N + 1)).val = t.val + 1 from rfl,
    show (t.castSucc : Fin (cfg1.N + 1)).val = t.val from rfl, Phi1_succ]
  rw [show (dat1 V c).leavesExact 0 t = owns (c : Thread nD τ) (st1_0 t) fullShare ((dat1 V c).after 0 t) from by
      unfold Dat.leavesExact; rw [live1_0 t], dat1_after_0]
  rw [show (dat1 V c).leavesExact 1 t = owns (c : Thread nD τ) (st1_1 t) fullShare ((dat1 V c).after 1 t) from by
      unfold Dat.leavesExact; rw [live1_1 t], dat1_after_1]
  rw [show (dat1 V c).leavesExact 2 t = owns (c : Thread nD τ) (st1_2 t) fullShare ((dat1 V c).after 2 t) from by
      unfold Dat.leavesExact; rw [live1_2 t], dat1_after_2]
  rw [show (dat1 V c).leavesExact 3 t = owns (c : Thread nD τ) (st1_3 t) fullShare ((dat1 V c).after 3 t) from by
      unfold Dat.leavesExact; rw [live1_3 t], dat1_after_3]
  have hN : t.val < 128 := lt_of_lt_of_eq t.isLt N_1
  by_cases h7 : t.val % 8 = 7
  · -- a run's last point
    have h0 : ¬t.val % 8 = 0 := by omega
    have hz : t.val ≠ 0 := by omega
    rw [show (dat1 V c).leavesExact 4 t = owns (c : Thread nD τ) (st1_4 t) fullShare ((dat1 V c).after 4 t) from by
        unfold Dat.leavesExact; rw [live1_4 t ((hcond1_1 t).mpr h7)], dat1_after_4]
    rw [acc1_next V c t h0, Phi1_pos V c _ hz]
    unfold step1 rest1
    iintro ⟨⟨⟨Ha, Hb, Hc, Hd, Hs⟩, Hg⟩, Ho, ⟨%d0, H0⟩, ⟨%d1, H1⟩, ⟨%d2, H2⟩, ⟨%d3, H3⟩, ⟨%d4, H4⟩⟩
    iapply (run_last c Set.univ (grid1.coords t) _ _ _ _ _ _ _ _ _ _ _ _ (fun h => h0 ((hcond1_0 t).mp h)) ((hcond1_1 t).mpr h7)
      (blk1 V c 0 t) (blk1 V c 1 t) (blk1 V c 2 t) (blk1 V c 3 t) (acc1 V c (t.val - 1)) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Ha Hb Hc Hd Hs Hg]
    · isplitl [Ha Hb Hc Hd Hs]
      · isplitl [Ha]; · iexact Ha
        isplitl [Hb]; · iexact Hb
        isplitl [Hc]; · iexact Hc
        isplitl [Hd]; · iexact Hd
        iexact Hs
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idle1_4 t (fun h => h7 ((hcond1_1 t).mp h)))
        (noflush1_4 t (fun h => h7 ((hcond1_1 t).mp h)))]
    by_cases h0 : t.val % 8 = 0
    · -- a run's first point: the accumulator's previous contents are not needed
      rw [acc1_first V c t h0]
      unfold step1
      have hfirst : Phi1 V c t.val ⊢ (iprop(rest1 c (iprop(∃ d, owns (c : Thread nD τ) accM fullShare d)) ∗ (∃ r, prngReg c r)) : sProp 𝕄) := by
        by_cases hz : t.val = 0
        · rw [Phi1_zero V c _ hz, PhiA1_eq]
        · rw [Phi1_pos V c _ hz]; unfold rest1
          iintro ⟨⟨Ha, Hb, Hc, Hd, Hs⟩, Hg⟩
          isplitl [Ha Hb Hc Hd Hs]
          · isplitl [Ha]; · iexact Ha
            isplitl [Hb]; · iexact Hb
            isplitl [Hc]; · iexact Hc
            isplitl [Hd]; · iexact Hd
            iexists _; iexact Hs
          iexact Hg
      unfold rest1 at hfirst ⊢
      iintro ⟨HΦ, Ho, ⟨%d0, H0⟩, ⟨%d1, H1⟩, ⟨%d2, H2⟩, ⟨%d3, H3⟩, ⟨%d4, H4⟩⟩
      ihave HΦ' := hfirst $$ HΦ
      icases HΦ' with ⟨⟨Ha, Hb, Hc, Hd, Hs⟩, Hg⟩
      iapply (run_first c Set.univ (grid1.coords t) _ _ _ _ _ _ _ _ _ _ _ _ ((hcond1_0 t).mpr h0) (fun h => h7 ((hcond1_1 t).mp h))
        (blk1 V c 0 t) (blk1 V c 1 t) (blk1 V c 2 t) (blk1 V c 3 t) ((dat1 V c).before 4 t d4) _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Ha Hb Hc Hd Hs Hg]
      · isplitl [Ha Hb Hc Hd Hs]
        · isplitl [Ha]; · iexact Ha
          isplitl [Hb]; · iexact Hb
          isplitl [Hc]; · iexact Hc
          isplitl [Hd]; · iexact Hd
          iexact Hs
        iexact Hg
      isplitl [Ho]; · iexact Ho
      isplitl [H0]; · iexact H0
      isplitl [H1]; · iexact H1
      isplitl [H2]; · iexact H2
      isplitl [H3]; · iexact H3
      iexists _; iexact H4
    · -- a middle point
      have hz : t.val ≠ 0 := fun e => h0 (by rw [e])
      rw [acc1_next V c t h0, Phi1_pos V c _ hz]
      unfold step1 rest1
      iintro ⟨⟨⟨Ha, Hb, Hc, Hd, Hs⟩, Hg⟩, Ho, ⟨%d0, H0⟩, ⟨%d1, H1⟩, ⟨%d2, H2⟩, ⟨%d3, H3⟩, ⟨%d4, H4⟩⟩
      iapply (run_mid c Set.univ (grid1.coords t) _ _ _ _ _ _ _ _ _ _ _ _ (fun h => h0 ((hcond1_0 t).mp h)) (fun h => h7 ((hcond1_1 t).mp h))
        (blk1 V c 0 t) (blk1 V c 1 t) (blk1 V c 2 t) (blk1 V c 3 t) ((dat1 V c).before 4 t d4) (acc1 V c (t.val - 1)) _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Ha Hb Hc Hd Hs Hg]
      · isplitl [Ha Hb Hc Hd Hs]
        · isplitl [Ha]; · iexact Ha
          isplitl [Hb]; · iexact Hb
          isplitl [Hc]; · iexact Hc
          isplitl [Hd]; · iexact Hd
          iexact Hs
        iexact Hg
      isplitl [Ho]; · iexact Ho
      isplitl [H0]; · iexact H0
      isplitl [H1]; · iexact H1
      isplitl [H2]; · iexact H2
      isplitl [H3]; · iexact H3
      iexists _; iexact H4

/-- The body obligation of region 1, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem phi1_in (c : Dev nD) : (Pipeline.ΦA spec1 c : sProp 𝕄) ⊢ (dat1 V c).Φ 0 := by
  rw [dat1_Phi]; try exact .rfl

/-- After the last point the invariant gives back what the launch handed over, the accumulator's contents forgotten. -/
theorem phi1_out (c : Dev nD) : (dat1 V c).Φ (Fin.last cfg1.N) ⊢ (Pipeline.ΦA spec1 c : sProp 𝕄) := by
  rw [dat1_Phi, Phi1_pos V c _ (by rw [Fin.val_last]; exact (by decide : grid1.N ≠ 0)), PhiA1_eq]
  unfold rest1
  iintro ⟨⟨Ha, Hb, Hc, Hd, Hs⟩, Hg⟩
  isplitl [Ha Hb Hc Hd Hs]
  · isplitl [Ha]; · iexact Ha
    isplitl [Hb]; · iexact Hb
    isplitl [Hc]; · iexact Hc
    isplitl [Hd]; · iexact Hd
    iexists _; iexact Hs
  iexact Hg

end Cert.KernelIdeal.Hand

end
-- ==== Proof.KI.Launch.lean ====
/-
  The launch of the two-region program, at any float instance.

  @main is three items in a row: region 0 (the degree pass, which leaves in a 4096×1 column the reciprocal
  shifted row sums of the first argument), one host line (the reshape of that column into a 1×4096 row), and
  region 1 (the fused mixture and matrix product, which reads the three arguments and the row and writes the
  result array).

  Between two items core c holds every unscoped buffer whole at a NAMED valuation, its generator register at
  some state, and owes no unit. The valuations are a fold from the launch memory m:

    W0 — the launch contents;
    W1 — W0 with region 0's two arrays at what its pipeline leaves: the first argument as found (an input
         array is never written), the column with the write-back of every grid point folded in;
    W2 — W1 after the reshape: the row buffer holds the column's elements in row-major order, every other
         buffer what it held;
    W3 — W2 with region 1's five arrays at what its pipeline leaves: the four inputs as found, the result
         array with every write-back folded in.

  Each region's proof data are taken at the valuation the region is entered from: W0 for region 0, W2 for
  region 1. Both regions enter and leave through the class invariant (the scoped buffers no window stages,
  each at some contents, and the generator register at some state); region 1's carried accumulator is
  inside its own invariant between its first and last point and forgotten at both ends.

  The run theorem says: from m with every counter at zero, every weakly fair execution of @main terminates,
  and the final memory holds W3 at every unscoped buffer of every core. The frame (each argument ends as
  launched) and the value of the result array (region 1's output array after its last write-back) are that
  statement read at four buffers.
-/
import proofs.«159127_j75093208203291_1_alg».proof.Proof.KI.Body0
import proofs.«159127_j75093208203291_1_alg».proof.Proof.KI.Body1
import proofs.«159127_j75093208203291_1_alg».proof.Proof.Gen.KernelIdeal.Regions
import Idealize.ShloMosaic.Lib.Pipeline.Kit
import Idealize.ShloMosaic.Lib.Pipeline.Regions
import Idealize.ShloMosaic.Lib.Pipeline.RegionsLoop
import Idealize.ShloMosaic.Lib.Pipeline.FrameSuffix
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the four boundaries -/

/-- every buffer of core c at launch -/
abbrev W0 (c : Dev nD) : Valuation τ sig (Elt F) := fun b => m (c, b)
/-- the same, read at the TensorCore's references: what region 0 finds -/
abbrev V0 (c : Dev nD) (b : Ref sig .tc) : Buf (Elt F) ((c : Thread nD τ).loc b) := W0 m c b

/-- After region 0: its two arrays at what the pipeline leaves after its last point, every other buffer as
    launched. -/
def W1 (c : Dev nD) : Valuation τ sig (Elt F) :=
  Pipeline.withArrays spec0 c (W0 m c) fun w => (dat0 (V0 m) c).arrAt w cfg0.N
/-- the same at the TensorCore's references -/
abbrev V1 (c : Dev nD) (b : Ref sig .tc) : Buf (Elt F) ((c : Thread nD τ).loc b) := W1 m c b

/-- After the reshape: the row buffer rewritten from the column, every other buffer as region 0 left it. -/
def W2 (c : Dev nD) : Valuation τ sig (Elt F) := StableHlo.after hostOps1 (W1 m c)
/-- the same at the TensorCore's references: what region 1 finds -/
abbrev V2 (c : Dev nD) (b : Ref sig .tc) : Buf (Elt F) ((c : Thread nD τ).loc b) := W2 m c b

/-- After region 1: its five arrays at what the pipeline leaves after its last point, every other buffer as
    the reshape left it. -/
def W3 (c : Dev nD) : Valuation τ sig (Elt F) :=
  Pipeline.withArrays spec1 c (W2 m c) fun w => (dat1 (V2 m) c).arrAt w cfg1.N

/-- Both pipelines' proof data, each at the contents its region is entered from. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c

/-! ## What each item changes, and what it leaves -/

/-- After region 0 each of its arrays holds what its pipeline leaves. -/
theorem W1_arr (c : Dev nD) (w : Fin cfg0.W) :
    W1 m c (Proc.devRef .tc (Pipeline.arrRef spec0 w)) = (dat0 (V0 m) c).arrAt w cfg0.N :=
  Pipeline.withArrays_arr spec0 launch0.win.arr_inj c _ _ w
/-- Region 0 changes no buffer that is not one of its arrays. -/
theorem W1_off (c : Dev nD) (b : Ref sig .tc) (hb : ∀ w, Pipeline.arrRef spec0 w ≠ b) :
    W1 m c (Proc.devRef .tc b) = W0 m c (Proc.devRef .tc b) :=
  Pipeline.withArrays_of_ne spec0 c _ _ b hb
/-- The reshape changes the row buffer only. -/
theorem W2_off (c : Dev nD) (b : Ref sig .tc) (hb : b ∉ hostOps1_W) :
    W2 m c (Proc.devRef .tc b) = W1 m c (Proc.devRef .tc b) :=
  StableHlo.after_of_writes_sub hostOps1 _ hostOps1_writes hb
/-- After region 1 each of its arrays holds what its pipeline leaves. -/
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
/-- Region 1 changes no buffer that is not one of its arrays. -/
theorem W3_off (c : Dev nD) (b : Ref sig .tc) (hb : ∀ w, Pipeline.arrRef spec1 w ≠ b) :
    W3 m c (Proc.devRef .tc b) = W2 m c (Proc.devRef .tc b) :=
  Pipeline.withArrays_of_ne spec1 c _ _ b hb

/-- An input array of region 0 leaves the region as it was found. -/
theorem thru0 (V : (c : Dev nD) → (b : Ref sig .tc) → Buf (Elt F) ((c : Thread nD τ).loc b)) (c : Dev nD)
    (w : Fin cfg0.W) (hw : (cfg0.win w).isOut = false) :
    (dat0 V c).arrAt w cfg0.N = V c (Pipeline.arrRef spec0 w) :=
  ((dat0 V c).arrAt_in w hw _).trans (dat0_A V c w)
/-- An input array of region 1 leaves the region as it was found. -/
theorem thru1 (V : (c : Dev nD) → (b : Ref sig .tc) → Buf (Elt F) ((c : Thread nD τ).loc b)) (c : Dev nD)
    (w : Fin cfg1.W) (hw : (cfg1.win w).isOut = false) :
    (dat1 V c).arrAt w cfg1.N = V c (Pipeline.arrRef spec1 w) :=
  ((dat1 V c).arrAt_in w hw _).trans (dat1_A V c w)

/-! ### What region 1 finds -/

/-- The first argument reaches region 1 as launched: region 0 only reads it, the reshape does not name it. -/
theorem V2_arg0 (c : Dev nD) : V2 m c main_arg0 = m ((c : Thread nD τ).loc main_arg0) :=
  calc V2 m c main_arg0
      = V1 m c main_arg0 := W2_off m c main_arg0 (by decide)
    _ = (dat0 (V0 m) c).arrAt 0 cfg0.N := W1_arr m c 0
    _ = V0 m c main_arg0 := thru0 (V0 m) c 0 rfl
    _ = m ((c : Thread nD τ).loc main_arg0) := rfl
/-- The second argument reaches region 1 as launched: nothing before it names it. -/
theorem V2_arg1 (c : Dev nD) : V2 m c main_arg1 = m ((c : Thread nD τ).loc main_arg1) :=
  calc V2 m c main_arg1
      = V1 m c main_arg1 := W2_off m c main_arg1 (by decide)
    _ = V0 m c main_arg1 := W1_off m c main_arg1 (by decide)
    _ = m ((c : Thread nD τ).loc main_arg1) := rfl
/-- The third argument reaches region 1 as launched: nothing before it names it. -/
theorem V2_arg2 (c : Dev nD) : V2 m c main_arg2 = m ((c : Thread nD τ).loc main_arg2) :=
  calc V2 m c main_arg2
      = V1 m c main_arg2 := W2_off m c main_arg2 (by decide)
    _ = V0 m c main_arg2 := W1_off m c main_arg2 (by decide)
    _ = m ((c : Thread nD τ).loc main_arg2) := rfl
/-- The row region 1 reads is the column region 0 left, its 4096 elements in the same order. -/
theorem V2_invd (c : Dev nD) :
    V2 m c main_v1 = fun i => shapeCast S1x4096 ((dat0 (V0 m) c).arrAt 1 cfg0.N) shapeCasts_S4096x1_S1x4096 i := by
  show StableHlo.after hostOps1 (W1 m c) (Proc.devRef .tc main_v1) = _
  after_results
  rw [show W1 m c (Proc.devRef .tc main_v0) = (dat0 (V0 m) c).arrAt 1 cfg0.N from W1_arr m c 1]
  rfl

/-! ### What the run ends at -/

/-- Each argument ends as launched: it is an input array of region 1, which leaves it as found, and it reached
    region 1 as launched. -/
theorem W3_arg0 (c : Dev nD) : W3 m c (Proc.devRef .tc main_arg0) = m ((c : Thread nD τ).loc main_arg0) :=
  (W3_arr m c 0).trans <| (thru1 (V2 m) c 0 rfl).trans (V2_arg0 m c)
theorem W3_arg1 (c : Dev nD) : W3 m c (Proc.devRef .tc main_arg1) = m ((c : Thread nD τ).loc main_arg1) :=
  (W3_arr m c 1).trans <| (thru1 (V2 m) c 1 rfl).trans (V2_arg1 m c)
theorem W3_arg2 (c : Dev nD) : W3 m c (Proc.devRef .tc main_arg2) = m ((c : Thread nD τ).loc main_arg2) :=
  (W3_arr m c 3).trans <| (thru1 (V2 m) c 3 rfl).trans (V2_arg2 m c)
/-- The result array ends at what region 1's pipeline leaves in its output array. -/
theorem W3_out (c : Dev nD) : W3 m c (Proc.devRef .tc main_v2) = (dat1 (V2 m) c).arrAt 4 cfg1.N :=
  W3_arr m c 4

/-! ## The thread state between two items -/

/-- No core owes another anything in this program: no level is assigned. -/
abbrev lvls : GSem nD τ sig → Finset Unit := fun _ => ∅
/-- The level of a pair that is never assigned one. -/
abbrev lev : GSem nD τ sig → Unit → ℕ := fun _ _ => 0

/-- What rides beside the buffers through every item: the core's generator register at some state, and the
    core owing nothing. -/
abbrev Idle (c : Dev nD) : sProp 𝕄 :=
  iprop((∃ r, prngReg c r) ∗ ∃ W, owes (c : Thread nD τ) (0 : CellTallies nD τ sig Unit) W)

/-- The thread state at a boundary whose contents are W: every unscoped buffer whole at W, the register, nothing owed. -/
abbrev At (W : Dev nD → Valuation τ sig (Elt F)) (c : Dev nD) : sProp 𝕄 :=
  iprop(StableHlo.held (c : Thread nD τ) (Pipeline.ucRefs τ sig) (W c) ∗ Idle c)

/-- The thread state at a boundary, with the nothing-owed part set apart (the form the run ends in). -/
theorem At_last (W : Dev nD → Valuation τ sig (Elt F)) (c : Dev nD) :
    At W c ⊢ (iprop((StableHlo.held (c : Thread nD τ) (Pipeline.ucRefs τ sig) (W c) ∗ ∃ r, prngReg c r)
      ∗ ∃ W', owes (c : Thread nD τ) (0 : CellTallies nD τ sig Unit) W') : sProp 𝕄) := by
  iintro ⟨Hb, Hg, Ho⟩
  isplitl [Hb Hg]
  · isplitl [Hb]
    · iexact Hb
    iexact Hg
  iexact Ho

/-! ## The small entailments every region's record is made of -/

/-- A core owing nothing is what a pipeline's loop holds before a point at which the proof data owe nothing and
    bound no recorded pair. -/
theorem owesAt_of_nothing {cfg : Cfg sig Λ₀} {c : Dev nD} (d : Dat τ (Elt F) Unit ℕ (UR sig nD τ) ℕ cfg c)
    (t : Fin (cfg.N + 1)) (ho : d.owed t = 0) (hr : d.recorded t = Set.univ) :
    (iprop(∃ W, owes (c : Thread nD τ) (0 : CellTallies nD τ sig Unit) W) : sProp 𝕄) ⊢ d.owesAt () t := by
  unfold Pipeline.Dat.owesAt Pipeline.owesWithin
  rw [ho]
  iintro ⟨%W, H⟩
  iexists W
  isplitr
  · ipureintro; intro x _; exact Or.inl (hr ▸ Set.mem_univ x)
  iexact H

/-- And back: what the loop holds after a point at which nothing is owed is a core owing nothing. -/
theorem nothing_of_owesAt {cfg : Cfg sig Λ₀} {c : Dev nD} (d : Dat τ (Elt F) Unit ℕ (UR sig nD τ) ℕ cfg c)
    (t : Fin (cfg.N + 1)) (ho : d.owed t = 0) :
    d.owesAt () t ⊢ (iprop(∃ W, owes (c : Thread nD τ) (0 : CellTallies nD τ sig Unit) W) : sProp 𝕄) := by
  unfold Pipeline.Dat.owesAt Pipeline.owesWithin
  rw [ho]
  iintro ⟨%W, -, H⟩
  iexists W
  iexact H

/-- The class invariant is made of the generator register and the scoped buffers no window stages; anything
    else offered with them is dropped. -/
theorem classIn {gr W : ℕ} (win : Fin W → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hg, -, Hs⟩
  isplitl [Hs]
  · iexact Hs
  iexact Hg

/-- The class invariant gives both back; a kernel with no semaphore of its own has none to return. -/
theorem classOut {gr W : ℕ} (win : Fin W → Pipeline.WinSpec sig gr) (c : Dev nD) :
    (Pipeline.ΦA win c : sProp 𝕄)
      ⊢ iprop((∃ r, prngReg c r) ∗ Pipeline.ownSems0 (fun k : PEmpty => k.elim) c ∗ Pipeline.scopedRest win c) := by
  rw [Pipeline.ownSems0_none]
  unfold Pipeline.ΦA
  iintro ⟨Hs, Hg⟩
  isplitl [Hg]
  · iexact Hg
  isplitr
  · iempintro
  iexact Hs

/-- The shape of a region's entry. The buffers B split into the arrays A and the bypassing rest Zr; the
    register G enters the invariant; the owed part O is restated as O'; tables T cost nothing; what else the
    entry is offered (S, L) is not needed. -/
theorem enter_shape {B A Zr G O O' T S L : sProp 𝕄} (hB : B ⊢ iprop(A ∗ Zr)) (hO : O ⊢ O')
    (hT : (BI.emp : sProp 𝕄) ⊢ T) :
    iprop((B ∗ G ∗ O) ∗ S ∗ L) ⊢ |={Set.univ}=> iprop(A ∗ T ∗ O' ∗ G ∗ Zr) := by
  iintro ⟨⟨Hb, Hg, Ho⟩, -, -⟩
  imodintro
  ihave Hsplit := hB $$ Hb
  icases Hsplit with ⟨Ha, Hz⟩
  isplitl [Ha]
  · iexact Ha
  isplitr
  · iapply hT; iempintro
  isplitl [Ho]
  · iapply hO; iexact Ho
  isplitl [Hg]
  · iexact Hg
  iexact Hz

/-- The shape of a region's exit: the arrays and the bypassing rest are the buffers again, at the new
    contents; the register comes back; the owed part is restated. -/
theorem leave_shape {A Zr B G O O' : sProp 𝕄} (hB : iprop(A ∗ Zr) ⊢ B) (hO : O' ⊢ O) :
    iprop(A ∗ O' ∗ G ∗ Zr) ⊢ |={Set.univ}=> iprop(B ∗ G ∗ O) := by
  iintro ⟨Ha, Ho, Hg, Hz⟩
  imodintro
  isplitl [Ha Hz]
  · iapply hB
    isplitl [Ha]
    · iexact Ha
    iexact Hz
  isplitl [Hg]
  · iexact Hg
  iapply hO; iexact Ho

/-! ## The three items as segments -/

-- a pipeline's configuration pinned at its admissible tables is the printed configuration only after unfolding
-- definitions inside types
set_option backward.isDefEq.respectTransparency.types false in
/-- Region 0 between the launch contents and W1. Entry: the two arrays are split out of the unscoped buffers at
    the contents found, the four other unscoped buffers bypass the region, the register enters the class
    invariant. Exit: the arrays come back at what the pipeline leaves, which is W1 by definition. -/
def reg0 : Pipeline.RegionSeg (pcfgs (F := F)) adm (pdats m) () defs₀ Variants.none lvls lev 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ lvls lev 0 fun _ _ => rfl
  pre := At (W0 m)
  post := At (W1 m)
  X c := iprop(∃ r, prngReg c r)
  Y c := iprop(∃ r, prngReg c r)
  Z c := Pipeline.unscopedRest (Ix := Unit) (Name := ℕ) (U := UR sig nD τ) (Lvl := ℕ) spec0 c (V0 m c)
  hentry c :=
    enter_shape
      ((Entails.of_eq (Pipeline.unscopedBufs_held c (W0 m c)).symm).trans
        (Pipeline.arrays_of_unscopedBufs (p := 0) (pcfgs (F := F)) adm (pdats m) launch0.win launch0.arr_whole c
          ((pdats m 0 c).share_full fun _ => rfl) (V0 m c) fun _ => rfl))
      (owesAt_of_nothing (pdats m 0 c) 0 rfl rfl)
      (by unfold Pipeline.prefHeld; rw [show (Finset.univ : Finset (Fin 0)) = ∅ from rfl, BI.bigSep_empty])
  hin c := classIn spec0 c _
  hout c := classOut spec0 c
  hexit c :=
    leave_shape
      ((Pipeline.unscopedBufs_of_arrays (p := 0) (pcfgs (F := F)) adm (Ix := Unit) (Name := ℕ) (U := UR sig nD τ) (Lvl := ℕ)
          launch0.win launch0.arr_whole c (pdats m) ((pdats m 0 c).share_full fun _ => rfl)
          (V0 m c) (V1 m c) ((pdats m 0 c).arrAt · cfg0.N) (fun w => (W1_arr m c w).symm)
          (fun b hb => W1_off m c b fun w e => hb (Finset.mem_image.mpr ⟨w, Finset.mem_univ _, e⟩))).trans
        (Entails.of_eq (Pipeline.unscopedBufs_held c (W1 m c))))
      (nothing_of_owesAt (pdats m 0 c) _ rfl)

/-- The host line between W1 and W2: the reshape over the unscoped buffers, the register and the nothing owed
    riding along; it ends at the buffers after the reshape, which is W2 by definition. -/
def reshapeSeg : Pipeline.HostSeg (Name := ℕ) (U := UR sig nD τ) (pcfgs (F := F)) defs₀ Variants.none lvls lev :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) Idle

-- as for region 0
set_option backward.isDefEq.respectTransparency.types false in
/-- Region 1 between W2 and W3. Entry: the five arrays are split out of the unscoped buffers at the contents
    found, the column (now dead) bypasses the region, the register enters the class invariant, from which the
    region's own invariant before its first point follows. Exit: the region's invariant after its last point
    gives the class invariant back, the arrays come back at what the pipeline leaves, which is W3 by definition. -/
def reg1 : Pipeline.RegionSeg (pcfgs (F := F)) adm (pdats m) () defs₀ Variants.none lvls lev 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ lvls lev 1 fun _ _ => rfl
  pre := At (W2 m)
  post := At (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c :=
    enter_shape
      ((Entails.of_eq (Pipeline.unscopedBufs_held c (W2 m c)).symm).trans
        (Pipeline.arrays_of_unscopedBufs (p := 1) (pcfgs (F := F)) adm (pdats m) launch1.win launch1.arr_whole c
          ((pdats m 1 c).share_full fun _ => rfl) (V2 m c) fun _ => rfl))
      (owesAt_of_nothing (pdats m 1 c) 0 rfl rfl)
      (by unfold Pipeline.prefHeld; rw [show (Finset.univ : Finset (Fin 0)) = ∅ from rfl, BI.bigSep_empty])
  hin c := (classIn spec1 c _).trans (phi1_in (V2 m) c)
  hout c := (phi1_out (V2 m) c).trans (classOut spec1 c)
  hexit c :=
    leave_shape
      ((Pipeline.unscopedBufs_of_arrays (p := 1) (pcfgs (F := F)) adm (Ix := Unit) (Name := ℕ) (U := UR sig nD τ) (Lvl := ℕ)
          launch1.win launch1.arr_whole c (pdats m) ((pdats m 1 c).share_full fun _ => rfl)
          (V2 m c) (fun b => W3 m c b) ((pdats m 1 c).arrAt · cfg1.N) (fun w => (W3_arr m c w).symm)
          (fun b hb => W3_off m c b fun w e => hb (Finset.mem_image.mpr ⟨w, Finset.mem_univ _, e⟩))).trans
        (Entails.of_eq (Pipeline.unscopedBufs_held c (W3 m c))))
      (nothing_of_owesAt (pdats m 1 c) _ rfl)

/-! ## The run -/

-- as for the regions: the statement's program and tables meet the pinned ones only after unfolding definitions
-- inside types
set_option backward.isDefEq.respectTransparency.types false in
/-- From the launch memory m with every counter at zero, every weakly fair execution of @main terminates, and the
    final memory holds W3 at every unscoped buffer of every core. The launch deals each core its unscoped buffers
    at m, its generator register and nothing owed, which is the thread state at W0; the three segments carry it to
    the thread state at W3; that state read against the final memory is the claim. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ Variants.none lvls lev m ρ main
    [.region (reg0 m), .host (reshapeSeg m), .region (reg1 m)]
    (fun c Q => by
      rw [main_segs adm (pdats m) () Variants.none lvls lev (reshapeSeg m) (reg0 m) (reg1 m) rfl c])
    (by simp only [Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [ownU_emb₁, BI.bigSep_emp_const]
      iintro H
      imodintro
      isplitl [H]
      · iexact H
      iempintro)
    (T₀ := At (W0 m))
    (Tₙ := fun c => iprop(StableHlo.held (c : Thread nD τ) (Pipeline.ucRefs τ sig) (W3 m c) ∗ ∃ r, prngReg c r))
    (hch := ⟨fun _ => .rfl, fun _ => .rfl, fun _ => .rfl, fun c => At_last (W3 m) c⟩)
    (hinit := Pipeline.initEach lvls lev fun c => by
      rw [show unscopedBufs c (fun b => m ((c : Thread nD τ).loc b))
          = StableHlo.held (c : Thread nD τ) (Pipeline.ucRefs τ sig) (W0 m c) from Pipeline.unscopedBufs_held c (W0 m c)]
      iintro ⟨⟨Hb, -, Ho, -, Hg, -⟩, -⟩
      imodintro
      isplitl [Hb]
      · iexact Hb
      isplitl [Hg]
      · iexists _; iexact Hg
      iexists ∅; iexact Ho)
    (QY := fun c s => ∀ b ∈ Pipeline.ucRefs τ sig, s.mem (((c : Thread nD τ)).1, b) = W3 m c b)
    (hfin := fun c s' => by
      unfold StableHlo.held
      iintro ⟨⟨Hb, -⟩, HSI⟩
      imodintro
      iapply (pointsTo_read_all (Pipeline.ucRefs τ sig) (fun b => (((c : Thread nD τ)).1, b)) (W3 m c) s')
      isplitl [Hb]
      · iexact Hb
      iexact HSI)
    (hQ := fun _ h => h)

/-- An unscoped reference of the TensorCore is among the buffers the run theorem speaks of. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_arg0 (by decide))).trans (W3_arg0 m c),
     (h c _ (mem_ucRefs main_arg1 (by decide))).trans (W3_arg1 m c),
     (h c _ (mem_ucRefs main_arg2 (by decide))).trans (W3_arg2 m c)⟩) (run_all m ρ)

/-- The result array ends at region 1's output array after its last write-back, and every argument as launched. -/
theorem valued : θ_run defs (onTc (τ := τ) (main (F := F))) ⟨m, fun _ => 0, ρ⟩ (fun r => ∀ c : Dev nD,
      r.2.mem ((c.tc : Thread nD τ).loc main_v2) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_ucRefs main_v2 (by decide))).trans (W3_out m c),
     (h c _ (mem_ucRefs main_arg0 (by decide))).trans (W3_arg0 m c),
     (h c _ (mem_ucRefs main_arg1 (by decide))).trans (W3_arg1 m c),
     (h c _ (mem_ucRefs main_arg2 (by decide))).trans (W3_arg2 m c)⟩) (run_all m ρ)

end Cert.KernelIdeal.Hand

end
-- ==== Proof.KV.Blocks.lean ====
/-
  Where the blocks of the two pipelines sit in their arrays.

  Region 0's grid has 8 points; point t's input block is rows 512·t … 512·t + 511 of the matrix (all 4096 columns), and
  its output block the same rows of the 4096×1 column. Region 1's grid has 8 · 2 · 8 = 128 points, t = 16·i + 8·j + k:
  the blocks of A and of h at point t are the 512×512 blocks (i, k), the block of the reciprocal-degree row is columns
  512·k … 512·k + 511, the block of W is the 512×2048 block (k, j), and the output block is the 512×2048 block (i, j).

  An element of a block sits in the array, on each axis, at block index × block size + its coordinate inside the block.
  The block indices are the printed index maps at the point's coordinates; they are decided once over each grid, and
  every statement below is then linear arithmetic on one axis at a time.
-/
import proofs.«159127_j75093208203291_1_alg».proof.Proof.KI.Body0
import proofs.«159127_j75093208203291_1_alg».proof.Proof.KI.Body1
import Idealize.ShloMosaic.Lib.ValueIdx
import Idealize.ShloMosaic.Lib.Pipeline.Value

set_option maxRecDepth 16384

noncomputable section

namespace Cert.KernelIdeal.Hand

open Idealize.ShloMosaic Idealize.ShloMosaic.TcCoe
open Idealize.SL.Sem
open Idealize.ShloMosaic.Pipeline (Dat Cfg Window)
open Idealize.ShloMosaic.ValueIdx
open Cert.KernelIdeal.Gen

variable {F : FTy → Type} [FloatOps F]

variable (V : (c : Dev nD) → (b : Ref sig .tc) → Buf (Elt F) ((c : Thread nD τ).loc b))

/-! ## The grids' coordinates and the block indices, decided over the grids -/

/-- Point t of region 1 has first coordinate t / 16, -/
theorem coords1_0 (t : Fin cfg1.N) : ((grid1.coords t) 0).val = t.val / 16 :=
  (by decide +kernel : ∀ t : Fin grid1.N, ((grid1.coords t) 0).val = t.val / 16) t
/-- second coordinate (t / 8) mod 2, -/
theorem coords1_1 (t : Fin cfg1.N) : ((grid1.coords t) 1).val = (t.val / 8) % 2 :=
  (by decide +kernel : ∀ t : Fin grid1.N, ((grid1.coords t) 1).val = (t.val / 8) % 2) t
/-- and third coordinate t mod 8. -/
theorem coords1_2 (t : Fin cfg1.N) : ((grid1.coords t) 2).val = t.val % 8 :=
  (by decide +kernel : ∀ t : Fin grid1.N, ((grid1.coords t) 2).val = t.val % 8) t

/-- Region 0: both windows' block index at point t is (t, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Region 1: the block indices of the five windows at point t = 16·i + 8·j + k are (i, k), (i, k), (0, k), (k, j), (i, j). -/
theorem index1 : ∀ t : Fin cfg1.N,
    win1_0.index t (0 : Fin 2) = t.val / 16 ∧ win1_0.index t (1 : Fin 2) = t.val % 8
    ∧ win1_1.index t (0 : Fin 2) = t.val / 16 ∧ win1_1.index t (1 : Fin 2) = t.val % 8
    ∧ win1_2.index t (0 : Fin 2) = 0 ∧ win1_2.index t (1 : Fin 2) = t.val % 8
    ∧ win1_3.index t (0 : Fin 2) = t.val % 8 ∧ win1_3.index t (1 : Fin 2) = (t.val / 8) % 2
    ∧ win1_4.index t (0 : Fin 2) = t.val / 16 ∧ win1_4.index t (1 : Fin 2) = (t.val / 8) % 2 :=
  (by decide +kernel : ∀ t : Fin grid1.N, _)

/-! ## Region 0: the row block of the matrix, and the output's block of the column -/

/-- The input block of region 0 at point t is rows 512·t … 512·t + 511 of the matrix. -/
theorem blk0_A (c : Dev nD) (t : Fin cfg0.N) (r : Fin 512) (k : Fin 4096) :
    blk0 V c 0 t (ix2 r k)
      = V c main_arg0 (ix2 (⟨512 * t.val + r.val, by have := lt_of_lt_of_eq t.isLt N_0; have := r.isLt; omega⟩ : Fin 4096) k) := by
  obtain ⟨e0, e1, -⟩ := index0 t
  unfold blk0
  rw [View.read_apply]
  show V c main_arg0 (((cfg0.win 0).blk t).view.emb (ix2 r k)) = V c main_arg0 _
  refine congrArg _ ?_
  funext a; apply Fin.ext
  match a with
  | ⟨0, _⟩ => show win0_0.index t (0 : Fin 2) * 512 + 1 * r.val = 512 * t.val + r.val; omega
  | ⟨1, _⟩ => show win0_0.index t (1 : Fin 2) * 4096 + 1 * k.val = k.val; omega

/-- An index of the 4096×1 column is in the output block of region 0 at point t iff its row is one of 512·t … 512·t + 511. -/
theorem mem_deg_blk (t : Fin cfg0.N) (i : S4096x1.Idx) :
    i ∈ ((cfg0.win 1).blk t).view.set ↔ (512 * t.val ≤ (i 0).val ∧ (i 0).val < 512 * t.val + 512) := by
  obtain ⟨-, -, e0, e1⟩ := index0 t
  show i ∈ ((View.whole main_v0).slice (win0_1.rect t)).set ↔ _
  rw [View.set_slice_whole, Rect.mem_set_unit]
  constructor
  · intro h
    have b0 : win0_1.index t (0 : Fin 2) * 512 ≤ (i 0).val ∧ (i 0).val < win0_1.index t (0 : Fin 2) * 512 + 512 := h 0
    omega
  · intro h a
    match a with
    | ⟨0, _⟩ =>
      show win0_1.index t (0 : Fin 2) * 512 ≤ (i 0).val ∧ (i 0).val < win0_1.index t (0 : Fin 2) * 512 + 512
      omega
    | ⟨1, _⟩ =>
      show win0_1.index t (1 : Fin 2) * 1 ≤ (i 1).val ∧ (i 1).val < win0_1.index t (1 : Fin 2) * 1 + 1
      have h1 : (i 1).val < 1 := (i 1).isLt
      omega

/-- Entry r of the output block of region 0 at point t is entry 512·t + r of the column. -/
theorem deg_blk_emb (t : Fin cfg0.N) (r : Fin 512) :
    ((cfg0.win 1).blk t).view.emb (ix2 r (0 : Fin 1))
      = (ix2 (⟨512 * t.val + r.val, by have := lt_of_lt_of_eq t.isLt N_0; have := r.isLt; omega⟩ : Fin 4096) (0 : Fin 1) : S4096x1.Idx) := by
  obtain ⟨-, -, e0, e1⟩ := index0 t
  funext a; apply Fin.ext
  match a with
  | ⟨0, _⟩ => show win0_1.index t (0 : Fin 2) * 512 + 1 * r.val = 512 * t.val + r.val; omega
  | ⟨1, _⟩ => show win0_1.index t (1 : Fin 2) * 1 + 1 * 0 = 0; omega

/-! ## Region 1: the blocks of A, h, the reciprocal-degree row and W, and the output's block -/

/-- The block of A at point t is the 512×512 block (t / 16, t mod 8). -/
theorem blk1_A (c : Dev nD) (t : Fin cfg1.N) (r l : Fin 512) :
    blk1 V c 0 t (ix2 r l)
      = V c main_arg0 (ix2 (⟨512 * (t.val / 16) + r.val, by have := lt_of_lt_of_eq t.isLt N_1; have := r.isLt; omega⟩ : Fin 4096)
                           (⟨512 * (t.val % 8) + l.val, by have := l.isLt; omega⟩ : Fin 4096)) := by
  obtain ⟨e0, e1, -⟩ := index1 t
  unfold blk1
  rw [View.read_apply]
  show V c main_arg0 (((cfg1.win 0).blk t).view.emb (ix2 r l)) = V c main_arg0 _
  refine congrArg _ ?_
  funext a; apply Fin.ext
  match a with
  | ⟨0, _⟩ => show win1_0.index t (0 : Fin 2) * 512 + 1 * r.val = 512 * (t.val / 16) + r.val; omega
  | ⟨1, _⟩ => show win1_0.index t (1 : Fin 2) * 512 + 1 * l.val = 512 * (t.val % 8) + l.val; omega

/-- The block of h at point t is the 512×512 block (t / 16, t mod 8). -/
theorem blk1_h (c : Dev nD) (t : Fin cfg1.N) (r l : Fin 512) :
    blk1 V c 1 t (ix2 r l)
      = V c main_arg1 (ix2 (⟨512 * (t.val / 16) + r.val, by have := lt_of_lt_of_eq t.isLt N_1; have := r.isLt; omega⟩ : Fin 4096)
                           (⟨512 * (t.val % 8) + l.val, by have := l.isLt; omega⟩ : Fin 4096)) := by
  obtain ⟨-, -, e0, e1, -⟩ := index1 t
  unfold blk1
  rw [View.read_apply]
  show V c main_arg1 (((cfg1.win 1).blk t).view.emb (ix2 r l)) = V c main_arg1 _
  refine congrArg _ ?_
  funext a; apply Fin.ext
  match a with
  | ⟨0, _⟩ => show win1_1.index t (0 : Fin 2) * 512 + 1 * r.val = 512 * (t.val / 16) + r.val; omega
  | ⟨1, _⟩ => show win1_1.index t (1 : Fin 2) * 512 + 1 * l.val = 512 * (t.val % 8) + l.val; omega

/-- The block of the reciprocal-degree row at point t is its columns 512·(t mod 8) … 512·(t mod 8) + 511. -/
theorem blk1_row (c : Dev nD) (t : Fin cfg1.N) (l : Fin 512) :
    blk1 V c 2 t (ix2 (0 : Fin 1) l)
      = V c main_v1 (ix2 (0 : Fin 1) (⟨512 * (t.val % 8) + l.val, by have := l.isLt; omega⟩ : Fin 4096)) := by
  obtain ⟨-, -, -, -, e0, e1, -⟩ := index1 t
  unfold blk1
  rw [View.read_apply]
  show V c main_v1 (((cfg1.win 2).blk t).view.emb (ix2 (0 : Fin 1) l)) = V c main_v1 _
  refine congrArg _ ?_
  funext a; apply Fin.ext
  match a with
  | ⟨0, _⟩ => show win1_2.index t (0 : Fin 2) * 1 + 1 * 0 = 0; omega
  | ⟨1, _⟩ => show win1_2.index t (1 : Fin 2) * 512 + 1 * l.val = 512 * (t.val % 8) + l.val; omega

/-- The block of W at point t is the 512×2048 block (t mod 8, (t / 8) mod 2). -/
theorem blk1_W (c : Dev nD) (t : Fin cfg1.N) (l : Fin 512) (cc : Fin 2048) :
    blk1 V c 3 t (ix2 l cc)
      = V c main_arg2 (ix2 (⟨512 * (t.val % 8) + l.val, by have := l.isLt; omega⟩ : Fin 4096)
                           (⟨2048 * ((t.val / 8) % 2) + cc.val, by have := cc.isLt; omega⟩ : Fin 4096)) := by
  obtain ⟨-, -, -, -, -, -, e0, e1, -⟩ := index1 t
  unfold blk1
  rw [View.read_apply]
  show V c main_arg2 (((cfg1.win 3).blk t).view.emb (ix2 l cc)) = V c main_arg2 _
  refine congrArg _ ?_
  funext a; apply Fin.ext
  match a with
  | ⟨0, _⟩ => show win1_3.index t (0 : Fin 2) * 512 + 1 * l.val = 512 * (t.val % 8) + l.val; omega
  | ⟨1, _⟩ => show win1_3.index t (1 : Fin 2) * 2048 + 1 * cc.val = 2048 * ((t.val / 8) % 2) + cc.val; omega

/-- An index of the output array is in the output block at point t iff its row is in the row block t / 16 and its
    column in the column block (t / 8) mod 2. -/
theorem mem_out_blk (t : Fin cfg1.N) (i : S4096x4096.Idx) :
    i ∈ ((cfg1.win 4).blk t).view.set
      ↔ (512 * (t.val / 16) ≤ (i 0).val ∧ (i 0).val < 512 * (t.val / 16) + 512
          ∧ 2048 * ((t.val / 8) % 2) ≤ (i 1).val ∧ (i 1).val < 2048 * ((t.val / 8) % 2) + 2048) := by
  obtain ⟨-, -, -, -, -, -, -, -, e0, e1⟩ := index1 t
  show i ∈ ((View.whole main_v2).slice (win1_4.rect t)).set ↔ _
  rw [View.set_slice_whole, Rect.mem_set_unit]
  constructor
  · intro h
    have b0 : win1_4.index t (0 : Fin 2) * 512 ≤ (i 0).val ∧ (i 0).val < win1_4.index t (0 : Fin 2) * 512 + 512 := h 0
    have b1 : win1_4.index t (1 : Fin 2) * 2048 ≤ (i 1).val ∧ (i 1).val < win1_4.index t (1 : Fin 2) * 2048 + 2048 := h 1
    omega
  · intro h a
    match a with
    | ⟨0, _⟩ =>
      show win1_4.index t (0 : Fin 2) * 512 ≤ (i 0).val ∧ (i 0).val < win1_4.index t (0 : Fin 2) * 512 + 512
      omega
    | ⟨1, _⟩ =>
      show win1_4.index t (1 : Fin 2) * 2048 ≤ (i 1).val ∧ (i 1).val < win1_4.index t (1 : Fin 2) * 2048 + 2048
      omega

/-- Entry (r, cc) of the output block at point t is entry (512·(t / 16) + r, 2048·((t / 8) mod 2) + cc) of the output array. -/
theorem out_blk_emb (t : Fin cfg1.N) (r : Fin 512) (cc : Fin 2048) :
    ((cfg1.win 4).blk t).view.emb (ix2 r cc)
      = (ix2 (⟨512 * (t.val / 16) + r.val, by have := lt_of_lt_of_eq t.isLt N_1; have := r.isLt; omega⟩ : Fin 4096)
             (⟨2048 * ((t.val / 8) % 2) + cc.val, by have := cc.isLt; omega⟩ : Fin 4096) : S4096x4096.Idx) := by
  obtain ⟨-, -, -, -, -, -, -, -, e0, e1⟩ := index1 t
  funext a; apply Fin.ext
  match a with
  | ⟨0, _⟩ => show win1_4.index t (0 : Fin 2) * 512 + 1 * r.val = 512 * (t.val / 16) + r.val; omega
  | ⟨1, _⟩ => show win1_4.index t (1 : Fin 2) * 2048 + 1 * cc.val = 2048 * ((t.val / 8) % 2) + cc.val; omega

end Cert.KernelIdeal.Hand

end
-- ==== Proof.Spec.lean ====
/-
  The function both programs compute, stated once over the extended reals, index by index.

  For square matrices A, h, W of extent 4096:
    invDeg A j   = 1 / (Σ_k A[j,k] + 1)                       (reciprocal of the shifted row sum)
    mix A h r k  = ½·h[r,k] + ½·((A[r,k] + δ_rk) · invDeg A k) (the column-scaled, self-looped mixture)
    out A h W    = (mix A h) · W                                (a matrix product: a sum over k of 4096 terms)
  The constant ½ is kept as the float word both programs print; 1 and 0 are the extended reals.

  The matrix product is also given blockwise: the 4096 terms grouped into 8 consecutive runs of
  512, the runs added left to right starting from 0. Grouping and order do not matter because
  addition of extended reals is commutative and associative.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shape of the three matrices. -/
abbrev SN : Shape := ⟨2, ![4096, 4096]⟩

/-- The word both programs print for one half. -/
abbrev half : EReal := Ideal.ofBits .f32 0x3F000000#32

/-- Reciprocal of the shifted sum of row `j`. -/
def invDeg (A : SN.Idx → EReal) (j : Fin 4096) : EReal :=
  Ideal.div 1 ((∑ k : Fin 4096, A (ix2 j k)) + 1)

/-- Entry (r, k) of the mixed matrix. -/
def mix (A h : SN.Idx → EReal) (r k : Fin 4096) : EReal :=
  half * h (ix2 r k) + half * ((A (ix2 r k) + (if r = k then 1 else 0)) * invDeg A k)

/-- Entry (r, c) of the result. -/
def outAt (A h W : SN.Idx → EReal) (r c : Fin 4096) : EReal :=
  ∑ k : Fin 4096, mix A h r k * W (ix2 k c)

/-- The result matrix. -/
def out (A h W : SN.Idx → EReal) : SN.Idx → EReal := fun i => outAt A h W (i 0) (i 1)

theorem out_apply (A h W : SN.Idx → EReal) (r c : Fin 4096) : out A h W (ix2 r c) = outAt A h W r c := rfl

/-- Position `l` of run `b`, among 4096 = 8 · 512. -/
def kAt (b : Fin 8) (l : Fin 512) : Fin 4096 := ⟨512 * b.val + l.val, by have := b.isLt; have := l.isLt; omega⟩

/-- The sum of the first `n` runs of 512 terms of `f`, added left to right from 0 (`n ≤ 8`; runs past the
    eighth do not exist and count as 0). -/
def runs (f : Fin 4096 → EReal) : ℕ → EReal
  | 0 => 0
  | n + 1 => runs f n + (if h : n < 8 then ∑ l : Fin 512, f (kAt ⟨n, h⟩ l) else 0)

theorem runs_zero (f : Fin 4096 → EReal) : runs f 0 = 0 := rfl
theorem runs_succ (f : Fin 4096 → EReal) (n : ℕ) (h : n < 8) :
    runs f (n + 1) = runs f n + ∑ l : Fin 512, f (kAt ⟨n, h⟩ l) := by
  show runs f n + (if h : n < 8 then _ else 0) = _
  rw [dif_pos h]

/-- The whole sum, regrouped as eight runs of 512 consecutive terms. -/
theorem sum_runs (f : Fin 4096 → EReal) :
    (∑ k : Fin 4096, f k) = ∑ b : Fin 8, ∑ l : Fin 512, f (kAt b l) := by
  rw [← Fintype.sum_prod_type']
  symm
  refine Fintype.sum_equiv (finProdFinEquiv : Fin 8 × Fin 512 ≃ Fin (8 * 512)) _ _ ?_
  intro p
  congr 1
  apply Fin.ext
  simp only [kAt, finProdFinEquiv, Equiv.coe_fn_mk]
  omega

/-- All eight runs together are the whole sum. -/
theorem runs_eight (f : Fin 4096 → EReal) : runs f 8 = ∑ k : Fin 4096, f k := by
  have h8 : runs f 8 = runs f 7 + ∑ l : Fin 512, f (kAt ⟨7, by norm_num⟩ l) := runs_succ f 7 (by norm_num)
  have h7 : runs f 7 = runs f 6 + ∑ l : Fin 512, f (kAt ⟨6, by norm_num⟩ l) := runs_succ f 6 (by norm_num)
  have h6 : runs f 6 = runs f 5 + ∑ l : Fin 512, f (kAt ⟨5, by norm_num⟩ l) := runs_succ f 5 (by norm_num)
  have h5 : runs f 5 = runs f 4 + ∑ l : Fin 512, f (kAt ⟨4, by norm_num⟩ l) := runs_succ f 4 (by norm_num)
  have h4 : runs f 4 = runs f 3 + ∑ l : Fin 512, f (kAt ⟨3, by norm_num⟩ l) := runs_succ f 3 (by norm_num)
  have h3 : runs f 3 = runs f 2 + ∑ l : Fin 512, f (kAt ⟨2, by norm_num⟩ l) := runs_succ f 2 (by norm_num)
  have h2 : runs f 2 = runs f 1 + ∑ l : Fin 512, f (kAt ⟨1, by norm_num⟩ l) := runs_succ f 1 (by norm_num)
  have h1 : runs f 1 = runs f 0 + ∑ l : Fin 512, f (kAt ⟨0, by norm_num⟩ l) := runs_succ f 0 (by norm_num)
  rw [h8, h7, h6, h5, h4, h3, h2, h1, runs_zero, zero_add, sum_runs, Fin.sum_univ_eight]
  rfl

end Cert.Spec

end
-- ==== Proof.PayAt.lean ====
/-
  The three values the kernel's bodies store, read at one index over the extended reals.

  The degree body stores 1 / (row sum + 1): the row sum is a sum over the 4096 columns started from the zero word,
  which is 0; the one-dimensional result is viewed as a column; the word 0x3F800000 is 1.
  The fused body first stores the zero splat, and then stores the accumulator plus a matrix product into the zero
  splat: a sum over the 512 columns of the mixed block times the rows of the right block. The mixed block is
  ½·h + ½·((A + diag)·row), where diag is 1 exactly when the block lies on the diagonal of the block grid and the
  two coordinates inside the block agree, and row is the one row of the reciprocal block repeated down the rows.
  Narrowing the format changes nothing on extended reals, and a view of a shape as itself is the identity.
  The word for one half is never evaluated.
-/
import proofs.«159127_j75093208203291_1_alg».proof.Proof.Gen.KernelIdeal.Skeleton
import proofs.«159127_j75093208203291_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayAt

open Cert.KernelIdeal Cert.KernelIdeal.Gen Idealize.ShloMosaic Idealize.ShloMosaic.ValueIdx

/-- The word 0x3F800000 is the number 1. -/
theorem one_word : Ideal.ofBits .f32 0x3F800000#32 = 1 := by
  simp [Ideal.ofBits, Ideal.ieee, -EReal.coe_mul]
  norm_num

/-- The first value the fused body stores is 0 everywhere. -/
theorem pay1_at (j : S512x2048.Idx) : k1_pay1 (F := Ideal) j = 0 := by
  unfold k1_pay1
  rw [shapeCast_self]
  exact Ideal.ofBits_zero_f32

/-- The value the degree body stores, at row `r` of its one column: the reciprocal of the shifted row sum. -/
theorem deg_pay_at (x : Vec Ideal S512x4096 .f32) (r : Fin 512) :
    k0_pay1 (F := Ideal) x (ix2 r (0 : Fin 1)) = Ideal.div 1 ((∑ k : Fin 4096, x (ix2 r k)) + 1) := by
  unfold k0_pay1
  rw [divf_apply, addf_apply, broadcast_apply,
    shapeCast_apply _ shapeCasts_S512_S512x1 (ix2 r (0 : Fin 1)) (ix1 r) (by
      rw [Shape.rowMajor_val_two, Shape.rowMajor_val_one]
      show r.val = r.val * 1 + 0
      omega)]
  refine congrArg₂ Ideal.div one_word (congrArg₂ (· + ·) ?_ one_word)
  refine (Ideal.multiReduction_add_single x _ reduces_S512x4096_S512 _ _ (ix1 r)).trans ?_
  exact Finset.sum_congr rfl fun k _ =>
    congrArg x (funext fun a => Fin.ext (by match a with | ⟨0, _⟩ => rfl | ⟨1, _⟩ => rfl))

/-- Two numbers below 2^32 are equal exactly when their 32-bit words are: the comparison's bit. -/
theorem cmp_words (a b : ℕ) (ha : a < 2 ^ 32) (hb : b < 2 ^ 32) :
    IntOp.cmpi .eq (BitVec.ofNat 32 a) (BitVec.ofNat 32 b) = if a = b then 1#1 else 0#1 := by
  by_cases h : a = b
  · subst h
    simp [IntOp.cmpi]
  · have hne : BitVec.ofNat 32 a ≠ BitVec.ofNat 32 b := by
      intro e
      have h' := congrArg BitVec.toNat e
      simp only [BitVec.toNat_ofNat] at h'
      rw [Nat.mod_eq_of_lt ha, Nat.mod_eq_of_lt hb] at h'
      exact h h'
    have hf : (BitVec.ofNat 32 a == BitVec.ofNat 32 b) = false := beq_eq_false_iff_ne.mpr hne
    rw [if_neg h]
    show BitVec.ofBool (BitVec.ofNat 32 a == BitVec.ofNat 32 b) = 0#1
    rw [hf]
    rfl

/-- A select on that comparison is the `if` on the numbers. -/
theorem select_cmp {α : Type} (a b : ℕ) (ha : a < 2 ^ 32) (hb : b < 2 ^ 32) (A B : α) :
    Scalar.select (IntOp.cmpi .eq (BitVec.ofNat 32 a) (BitVec.ofNat 32 b)) A B = if a = b then A else B := by
  rw [cmp_words a b ha hb]
  by_cases h : a = b
  · rw [if_pos h, if_pos h, select_one]
  · rw [if_neg h, if_neg h, select_zero]

/-- The diagonal term: 1 exactly when the block is on the block grid's diagonal and the two coordinates inside the
    block agree. -/
theorem diag_at (i : grid1.Coords) (r l : Fin 512) :
    (Scalar.select (Scalar.cmpi .eq (BitVec.ofNat 32 (i 0).val) (BitVec.ofNat 32 (i 2).val))
        (select (cmpi .eq (iota .tc S512x512 32 [0] iota_S512x512_d0_w32) (iota .tc S512x512 32 [1] iota_S512x512_d1_w32))
          (broadcast S512x512 (FloatOps.ofBits .f32 0x3F800000#32))
          (broadcast S512x512 (FloatOps.ofBits .f32 0x00000000#32)))
        (broadcast S512x512 (FloatOps.ofBits .f32 0x00000000#32)) : FVec Ideal S512x512 .f32) (ix2 r l)
      = if (i 0).val = (i 2).val ∧ r = l then 1 else 0 := by
  have h0 : (i 0).val < 2 ^ 32 := lt_trans (show (i 0).val < 8 from (i 0).isLt) (by norm_num)
  have h2 : (i 2).val < 2 ^ 32 := lt_trans (show (i 2).val < 8 from (i 2).isLt) (by norm_num)
  have hr : r.val < 2 ^ 32 := lt_trans r.isLt (by norm_num)
  have hl : l.val < 2 ^ 32 := lt_trans l.isLt (by norm_num)
  unfold Scalar.cmpi
  rw [select_cmp _ _ h0 h2]
  by_cases hb : (i 0).val = (i 2).val
  · rw [if_pos hb, select_apply, broadcast_apply, broadcast_apply]
    show Scalar.select (IntOp.cmpi .eq (iota .tc S512x512 32 [0] iota_S512x512_d0_w32 (ix2 r l))
      (iota .tc S512x512 32 [1] iota_S512x512_d1_w32 (ix2 r l))) _ _ = _
    rw [iota_single_apply, iota_single_apply]
    show Scalar.select (IntOp.cmpi .eq (BitVec.ofNat 32 r.val) (BitVec.ofNat 32 l.val)) _ _ = _
    rw [select_cmp _ _ hr hl]
    by_cases hrl : r = l
    · rw [if_pos (congrArg Fin.val hrl), if_pos ⟨hb, hrl⟩]
      exact one_word
    · rw [if_neg (fun e => hrl (Fin.ext e)), if_neg (fun h => hrl h.2)]
      exact Ideal.ofBits_zero_f32
  · rw [if_neg hb, broadcast_apply, if_neg (fun h => hb h.1)]
    exact Ideal.ofBits_zero_f32

/-! The product's operand indices, axis by axis: at output index (r, c) and contraction coordinate k the left operand
    is read at (r, k) and the right at (k, c). -/

theorem lhs_axis0 (j : S512x2048.Idx) (q : dot_S512x512_S512x2048_S512x2048_1_0_0_1_n_n.contr.Idx) :
    (dot_S512x512_S512x2048_S512x2048_1_0_0_1_n_n.lhsIdx j q 0).val = (j 0).val := by
  unfold DotDims.lhsIdx
  rw [dif_neg (show ¬(0 : Fin S512x512.rank) ∈ dot_S512x512_S512x2048_S512x2048_1_0_0_1_n_n.lhsBatch by decide),
    dif_pos (show (0 : Fin S512x512.rank) ∈ dot_S512x512_S512x2048_S512x2048_1_0_0_1_n_n.lhsNonContracting by decide)]
  rfl
theorem lhs_axis1 (j : S512x2048.Idx) (q : dot_S512x512_S512x2048_S512x2048_1_0_0_1_n_n.contr.Idx) :
    (dot_S512x512_S512x2048_S512x2048_1_0_0_1_n_n.lhsIdx j q 1).val = (q ⟨0, by decide⟩).val :=
  dot_S512x512_S512x2048_S512x2048_1_0_0_1_n_n.lhsIdx_val_of_single rfl j q
theorem rhs_axis0 (j : S512x2048.Idx) (q : dot_S512x512_S512x2048_S512x2048_1_0_0_1_n_n.contr.Idx) :
    (dot_S512x512_S512x2048_S512x2048_1_0_0_1_n_n.rhsIdx j q 0).val = (q ⟨0, by decide⟩).val :=
  dot_S512x512_S512x2048_S512x2048_1_0_0_1_n_n.rhsIdx_val_of_single rfl j q
theorem rhs_axis1 (j : S512x2048.Idx) (q : dot_S512x512_S512x2048_S512x2048_1_0_0_1_n_n.contr.Idx) :
    (dot_S512x512_S512x2048_S512x2048_1_0_0_1_n_n.rhsIdx j q 1).val = (j 1).val := by
  unfold DotDims.rhsIdx
  rw [dif_neg (show ¬(1 : Fin S512x2048.rank) ∈ dot_S512x512_S512x2048_S512x2048_1_0_0_1_n_n.rhsBatch by decide),
    dif_pos (show (1 : Fin S512x2048.rank) ∈ dot_S512x512_S512x2048_S512x2048_1_0_0_1_n_n.rhsNonContracting by decide)]
  rfl

/-- The matrix product into the zero splat, at (r, c): the sum over the 512 shared coordinates. -/
theorem matmul_at {φ₁ φ₂ : FTy} (L : FVec Ideal S512x512 φ₁) (R : FVec Ideal S512x2048 φ₂) (r : Fin 512) (c : Fin 2048) :
    matmul dot_S512x512_S512x2048_S512x2048_1_0_0_1_n_n none L R (constant (F := Ideal) S512x2048 .f32 0x00000000#32) (ix2 r c)
      = ∑ l : Fin 512, L (ix2 r l) * R (ix2 l c) := by
  simp only [matmul]
  rw [Ideal.matmul_constant_zero_apply,
    ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 r c)
      ((contrEquiv1 dot_S512x512_S512x2048_S512x2048_1_0_0_1_n_n 512 rfl rfl).symm k) = ix2 r k :=
    funext fun a => Fin.ext (by
      match a with
      | ⟨0, _⟩ => exact lhs_axis0 _ _
      | ⟨1, _⟩ => exact (lhs_axis1 _ _).trans hk)
  have er : dot_S512x512_S512x2048_S512x2048_1_0_0_1_n_n.rhsIdx (ix2 r c)
      ((contrEquiv1 dot_S512x512_S512x2048_S512x2048_1_0_0_1_n_n 512 rfl rfl).symm k) = ix2 k c :=
    funext fun a => Fin.ext (by
      match a with
      | ⟨0, _⟩ => exact (rhs_axis0 _ _).trans hk
      | ⟨1, _⟩ => exact rhs_axis1 _ _)
  rw [el, er]

/-- The second value the fused body stores, at (r, c): the accumulator plus the product of the mixed block with the
    right block. -/
theorem pay2_at (i : grid1.Coords) (x0 x1 : Vec Ideal S512x512 .f32) (x2 : Vec Ideal S1x512 .f32) (x3 s : Vec Ideal S512x2048 .f32)
    (r : Fin 512) (c : Fin 2048) :
    k1_pay2 (F := Ideal) i x0 x2 x1 x3 s (ix2 r c)
      = s (ix2 r c) + ∑ l : Fin 512, (Cert.Spec.half * x1 (ix2 r l)
          + Cert.Spec.half * ((x0 (ix2 r l) + (if (i 0).val = (i 2).val ∧ r = l then 1 else 0)) * x2 (ix2 (0 : Fin 1) l))) * x3 (ix2 l c) := by
  unfold k1_pay2
  rw [shapeCast_self, addf_apply, matmul_at]
  refine congrArg (s (ix2 r c) + ·) (Finset.sum_congr rfl fun l _ => ?_)
  simp only [truncf_apply, addf_apply, mulf_apply, broadcast_apply]
  rw [diag_at, shapeCast_self, shapeCast_self, broadcastTo_1b_ab_apply]
  rfl

end Cert.KernelIdeal.PayAt

end
-- ==== Proof.KV.Deg.lean ====
/-
  What region 0 leaves, over the extended reals.

  Region 0 writes back, at each of its 8 points, the 512×1 block whose entry r is the reciprocal of the shifted sum of row
  512·t + r of the matrix. The blocks tile the 4096×1 column, so the column ends holding, at row j, 1 / (Σ_k A[j,k] + 1)
  with A the first argument as launched. The host line between the regions lays the column out as a 1×4096 row with the
  same elements in the same order, so region 1 finds that reciprocal at column j of the row.
-/
import proofs.«159127_j75093208203291_1_alg».proof.Proof.KV.Blocks
import proofs.«159127_j75093208203291_1_alg».proof.Proof.KI.Launch
import proofs.«159127_j75093208203291_1_alg».proof.Proof.PayAt
import proofs.«159127_j75093208203291_1_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe
open Idealize.SL.Sem
open Idealize.ShloMosaic.Pipeline (Dat Cfg Window)
open Idealize.ShloMosaic.ValueIdx
open Cert.KernelIdeal.Gen
open Cert.KernelIdeal.PayAt (deg_pay_at)

variable (m : (ℓ : Loc nD τ sig) → Buf (Elt Ideal) ℓ)

/-- The column of reciprocal shifted row sums of the first argument as launched. -/
abbrev degCol (c : Dev nD) : S4096x1.Idx → EReal :=
  fun i => Cert.Spec.invDeg (m ((c : Thread nD τ).loc main_arg0)) (i 0)

/-- What point t of region 0 writes back is its block of that column: entry r of the stored block is the reciprocal of
    the shifted sum of the loaded block's row r, which is row 512·t + r of the matrix, and sits at row 512·t + r of the column. -/
theorem deg_flushed (c : Dev nD) (t : Fin cfg0.N) :
    (dat0 (V0 m) c).flushed 1 t = ((cfg0.win 1).blk t).view.read (Elt Ideal) (degCol m c) := by
  show (cfg0.win 1).cut (grid0.coords t) ((dat0 (V0 m) c).after 1 t) = _
  rw [dat0_after_1]
  funext y
  obtain ⟨r, z, rfl⟩ : ∃ (r : Fin 512) (z : Fin 1), y = ix2 r z := ⟨y 0, y 1, eq_ix2 (n0 := 512) (n1 := 1) y⟩
  obtain rfl : z = 0 := Subsingleton.elim _ _
  rw [View.read_apply]
  show k0_pay1 (blk0 (V0 m) c 0 t) (ix2 r (0 : Fin 1)) = degCol m c (((cfg0.win 1).blk t).view.emb (ix2 r (0 : Fin 1)))
  rw [deg_blk_emb, deg_pay_at]
  show _ = Cert.Spec.invDeg (m ((c : Thread nD τ).loc main_arg0)) _
  unfold Cert.Spec.invDeg
  simp only [blk0_A]

/-- Region 0 leaves in the 4096×1 column the reciprocal shifted row sums of the first argument: every point writes back
    its block of that column, and row R lies in the block of point R / 512. -/
theorem deg_column (c : Dev nD) :
    (dat0 (V0 m) c).arrAt 1 cfg0.N
      = fun i : S4096x1.Idx => Cert.Spec.invDeg (m ((c : Thread nD τ).loc main_arg0)) (i 0) := by
  refine (dat0 (V0 m) c).arrAt_eq_of_cover 1 (degCol m c) (fun t _ => deg_flushed m c t) fun i => ?_
  have hi : ((i : S4096x1.Idx) 0).val < 4096 := ((i : S4096x1.Idx) 0).isLt
  refine ⟨⟨((i : S4096x1.Idx) 0).val / 512, by rw [show cfg0.N = 8 from N_0]; omega⟩, flush0_1 _, ?_⟩
  rw [mem_deg_blk]
  show 512 * (((i : S4096x1.Idx) 0).val / 512) ≤ ((i : S4096x1.Idx) 0).val
    ∧ ((i : S4096x1.Idx) 0).val < 512 * (((i : S4096x1.Idx) 0).val / 512) + 512
  omega

/-- Region 1 finds, at column k of the 1×4096 row, the reciprocal shifted sum of row k of the first argument: the row is
    the column laid out again, and entry (0, k) of the one has the row-major position of entry (k, 0) of the other. -/
theorem invd_row (c : Dev nD) (k : Fin 4096) :
    V2 m c main_v1 (ix2 (0 : Fin 1) k) = Cert.Spec.invDeg (m ((c : Thread nD τ).loc main_arg0)) k := by
  rw [V2_invd]
  show shapeCast S1x4096 ((dat0 (V0 m) c).arrAt 1 cfg0.N) shapeCasts_S4096x1_S1x4096 (ix2 (0 : Fin 1) k) = _
  rw [shapeCast_apply _ shapeCasts_S4096x1_S1x4096 (ix2 (0 : Fin 1) k) (ix2 k (0 : Fin 1)) (by
      rw [Shape.rowMajor_val_two, Shape.rowMajor_val_two]
      show k.val * 1 + 0 = 0 * 4096 + k.val
      omega),
    deg_column]

end Cert.KernelIdeal.Hand

end
-- ==== Proof.KV.Acc.lean ====
/-
  Region 1's value at the extended reals: what the accumulator holds after every point, and the result array.

  Write A, h, W for the three argument matrices. At point t = 16·i + 8·j + k the body adds to the accumulator,
  at entry (r, c) of the 512×2048 block, the 512 terms  mix A h (512·i + r) κ · W[κ, 2048·j + c]  for κ in the
  k-th run of 512 contraction indices; the blocks it reads are the (i,k) blocks of A and h, the k-th piece of
  the reciprocal-degree row (region 0's result, reshaped), and the (k,j) block of W, and its diagonal mask is
  on exactly where the global row and contraction indices coincide. So after point t the accumulator holds the
  first k+1 runs of the sum, added left to right from zero; after the run's last point all eight: the whole
  sum, which is the (512·i + r, 2048·j + c) entry of the product the specification names. The output
  blocks written back at the sixteen last points tile the 4096×4096 array.
-/
import proofs.«159127_j75093208203291_1_alg».proof.Proof.KI.Launch
import proofs.«159127_j75093208203291_1_alg».proof.Proof.KV.Blocks
import proofs.«159127_j75093208203291_1_alg».proof.Proof.KV.Deg
import proofs.«159127_j75093208203291_1_alg».proof.Proof.PayAt
import proofs.«159127_j75093208203291_1_alg».proof.Proof.Spec

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal.Gen

variable (m : (ℓ : Loc nD τ sig) → Buf (Elt Ideal) ℓ)

/-- The three argument matrices on core `c`, as functions of a matrix index. -/
abbrev matA (c : Dev nD) : Cert.Spec.SN.Idx → EReal := m ((c : Thread nD τ).loc main_arg0)
abbrev matH (c : Dev nD) : Cert.Spec.SN.Idx → EReal := m ((c : Thread nD τ).loc main_arg1)
abbrev matW (c : Dev nD) : Cert.Spec.SN.Idx → EReal := m ((c : Thread nD τ).loc main_arg2)

/-- The term of the product at output entry (R, C) and contraction index κ. -/
def term (c : Dev nD) (R C κ : Fin 4096) : EReal :=
  Cert.Spec.mix (matA m c) (matH m c) R κ * matW m c (ix2 κ C)

/-- The global row of entry row `r` of the output block of point `t`, and the global column of its column `cc`. -/
def rowAt (t : Fin cfg1.N) (r : Fin 512) : Fin 4096 :=
  ⟨512 * (t.val / 16) + r.val, by have := lt_of_lt_of_eq t.isLt N_1; have := r.isLt; omega⟩
def colAt (t : Fin cfg1.N) (cc : Fin 2048) : Fin 4096 :=
  ⟨2048 * ((t.val / 8) % 2) + cc.val, by have := cc.isLt; omega⟩
/-- The run of contraction indices point `t` adds. -/
def runOf (t : Fin cfg1.N) : Fin 8 := ⟨t.val % 8, Nat.mod_lt _ (by decide)⟩

/-- One point's update at an entry: the previous accumulator there plus that point's run of 512 terms. -/
theorem step_at (c : Dev nD) (t : Fin cfg1.N) (s : Vec Ideal S512x2048 .f32) (r : Fin 512) (cc : Fin 2048) :
    step1 (V2 m) c t s (ix2 r cc)
      = s (ix2 r cc) + ∑ l : Fin 512, term m c (rowAt t r) (colAt t cc) (Cert.Spec.kAt (runOf t) l) := by
  unfold step1
  rw [Cert.KernelIdeal.PayAt.pay2_at]
  refine congrArg (s (ix2 r cc) + ·) (Finset.sum_congr rfl fun l _ => ?_)
  rw [blk1_A, blk1_h, blk1_row, blk1_W, V2_arg0, V2_arg1, V2_arg2, invd_row]
  unfold term Cert.Spec.mix
  have hd : ((grid1.coords t 0).val = (grid1.coords t 2).val ∧ r = l) ↔ rowAt t r = Cert.Spec.kAt (runOf t) l := by
    rw [coords1_0, coords1_2]
    constructor
    · rintro ⟨h1, rfl⟩; apply Fin.ext; show 512 * (t.val / 16) + r.val = 512 * (t.val % 8) + r.val; rw [h1]
    · intro h
      have h' : 512 * (t.val / 16) + r.val = 512 * (t.val % 8) + l.val := congrArg Fin.val h
      have := r.isLt; have := l.isLt
      exact ⟨by omega, Fin.ext (by omega)⟩
  simp only [hd]
  rfl

/-- The accumulator after the point numbered `n`: the first `n % 8 + 1` runs of the entry's sum. -/
theorem acc_runs (c : Dev nD) : ∀ (n : ℕ) (hn : n < cfg1.N) (r : Fin 512) (cc : Fin 2048),
    acc1 (V2 m) c n (ix2 r cc) = Cert.Spec.runs (term m c (rowAt ⟨n, hn⟩ r) (colAt ⟨n, hn⟩ cc)) (n % 8 + 1) := by
  intro n
  induction n with
  | zero =>
    intro hn r cc
    refine (congrFun (acc1_first (V2 m) c ⟨0, hn⟩ rfl) _).trans ?_
    rw [step_at, Cert.KernelIdeal.PayAt.pay1_at]
    show _ = Cert.Spec.runs _ (0 + 1)
    rw [Cert.Spec.runs_succ _ 0 (by decide), Cert.Spec.runs_zero]
    rfl
  | succ n ih =>
    intro hn r cc
    have hN : n + 1 < 128 := lt_of_lt_of_eq hn N_1
    by_cases h0 : (n + 1) % 8 = 0
    · refine (congrFun (acc1_first (V2 m) c ⟨n + 1, hn⟩ h0) _).trans ?_
      rw [step_at, Cert.KernelIdeal.PayAt.pay1_at]
      show _ = Cert.Spec.runs _ ((n + 1) % 8 + 1)
      rw [h0, Cert.Spec.runs_succ _ 0 (by decide), Cert.Spec.runs_zero]
      refine congrArg (0 + ·) (Finset.sum_congr rfl fun l _ => ?_)
      exact congrArg _ (congrArg (Cert.Spec.kAt · l) (Fin.ext (by show (n + 1) % 8 = 0; exact h0)))
    · have hn' : n < cfg1.N := Nat.lt_of_succ_lt hn
      refine (congrFun (acc1_next (V2 m) c ⟨n + 1, hn⟩ h0) _).trans ?_
      rw [step_at]
      show acc1 (V2 m) c n (ix2 r cc) + _ = Cert.Spec.runs _ ((n + 1) % 8 + 1)
      rw [ih hn' r cc]
      have hrow : rowAt ⟨n, hn'⟩ r = rowAt ⟨n + 1, hn⟩ r := Fin.ext (by show 512 * (n / 16) + r.val = 512 * ((n + 1) / 16) + r.val; omega)
      have hcol : colAt ⟨n, hn'⟩ cc = colAt ⟨n + 1, hn⟩ cc := Fin.ext (by show 2048 * ((n / 8) % 2) + cc.val = 2048 * (((n + 1) / 8) % 2) + cc.val; omega)
      have hk : n % 8 + 1 = (n + 1) % 8 := by omega
      rw [hrow, hcol, hk, Cert.Spec.runs_succ _ ((n + 1) % 8) (Nat.mod_lt _ (by decide))]
      rfl

/-- THE RESULT ARRAY: after region 1, main_v2 holds the specification's product. -/
theorem result (c : Dev nD) :
    (dat1 (V2 m) c).arrAt 4 cfg1.N = Cert.Spec.out (matA m c) (matH m c) (matW m c) := by
  refine (dat1 (V2 m) c).arrAt_eq_of_cover 4 (Cert.Spec.out (matA m c) (matH m c) (matW m c)) (fun t hf => ?_) (fun i => ?_)
  · -- what a run's last point writes back is its block of the product
    have h7 : t.val % 8 = 7 := (flush1_4 t).mp hf
    funext y
    obtain ⟨r, cc, rfl⟩ : ∃ (r : Fin 512) (cc : Fin 2048), y = ix2 r cc := ⟨y 0, y 1, eq_ix2 y⟩
    rw [View.read_apply, out_blk_emb]
    show (dat1 (V2 m) c).after 4 t (ix2 r cc) = _
    rw [dat1_after_4, acc_runs m c t.val t.isLt r cc, h7]
    show Cert.Spec.runs _ 8 = Cert.Spec.outAt _ _ _ _ _
    rw [Cert.Spec.runs_eight]
    rfl
  · -- every entry lies in the block of some run's last point
    have h0' : (i 0).val < 4096 := (i 0).isLt
    have h1' : (i 1).val < 4096 := (i 1).isLt
    obtain ⟨t, ht⟩ : ∃ t : Fin cfg1.N, t.val = 16 * ((i 0).val / 512) + 8 * ((i 1).val / 2048) + 7 :=
      ⟨⟨16 * ((i 0).val / 512) + 8 * ((i 1).val / 2048) + 7, lt_of_lt_of_eq (by omega) N_1.symm⟩, rfl⟩
    refine ⟨t, (flush1_4 t).mpr (by omega), ?_⟩
    rw [mem_out_blk]
    omega

end Cert.KernelIdeal.Hand

end
-- ==== Proof.RefValue.lean ====
/-
  The reference program's result is the specified function.

  Each stage of the reference is read at one index and the stages are composed:
    the row sums start from the zero word, which is 0;
    the word 0x3F800000 is 1, so the reciprocal stage is 1 / (row sum + 1);
    the identity matrix is made by comparing the two coordinate counters as 32-bit words and converting the
    one-bit answer to a number: two coordinates below 4096 are equal exactly when their words are, so the entry
    is 1 on the diagonal and 0 off it;
    the two broadcasts of the reciprocal vector read it at the column coordinate;
    the word for one half is the same on both sides and is never evaluated.
-/
import proofs.«159127_j75093208203291_1_alg».proof.Proof.Gen.ReferenceIdeal.Run
import proofs.«159127_j75093208203291_1_alg».proof.Proof.Gen.ReferenceIdeal.Read
import proofs.«159127_j75093208203291_1_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Idealize.ShloMosaic.StableHlo

/-- The word 0x3F800000 is the number 1. -/
theorem one_word : Ideal.ofBits .f32 0x3F800000#32 = 1 := by
  simp [Ideal.ofBits, Ideal.ieee, -EReal.coe_mul]
  norm_num

/-- Two coordinates below 4096 are equal exactly when their 32-bit words are. -/
theorem word_inj (r k : Fin 4096) : BitVec.ofNat 32 r.val = BitVec.ofNat 32 k.val ↔ r = k := by
  constructor
  · intro e
    have h := congrArg BitVec.toNat e
    simp only [BitVec.toNat_ofNat] at h
    have hr := r.isLt
    have hk := k.isLt
    rw [Nat.mod_eq_of_lt (by omega), Nat.mod_eq_of_lt (by omega)] at h
    exact Fin.ext h
  · intro e
    rw [e]

/-- The converted comparison of the coordinate counters is the identity matrix. -/
theorem eye_read (r k : Fin 4096) :
    val_main_v10 (F := Ideal) (ix2 r k) = if r = k then 1 else 0 := by
  rw [val_main_v10_apply, val_main_v9_apply, val_main_v8_apply, val_main_v5_apply, val_main_v6_apply,
    val_main_v7_apply, val_main_c_apply]
  show (((IntOp.cmpi .eq (IntOp.addi (BitVec.ofNat 32 r.val) 0#32) (BitVec.ofNat 32 k.val)).toNat : ℝ) : EReal) = _
  unfold IntOp.cmpi IntOp.addi
  rw [BitVec.add_zero]
  by_cases h : r = k
  · subst h
    simp
  · have hne : BitVec.ofNat 32 r.val ≠ BitVec.ofNat 32 k.val := fun e => h ((word_inj r k).mp e)
    simp [hne, h]

/-- The reciprocal stage at column `k` is the reciprocal of the shifted row sum. -/
theorem invDeg_read (x0 : (⟨S4096x4096, .f32⟩ : BufTy).Contents (Elt Ideal)) (k : Fin 4096) :
    val_main_v4 (F := Ideal) x0 (ix1 k) = Cert.Spec.invDeg x0 k := by
  rw [val_main_v4_apply, val_main_v3_apply, val_main_cst_1_apply, val_main_v2_apply, val_main_v1_apply,
    val_main_cst_0_apply, val_main_v0_apply, val_main_cst_apply]
  simp only [Ideal.hostDivf_def, Ideal.addf_def, Ideal.ofBits_def, Ideal.ofBits_zero_f32, one_word, zero_add]
  unfold Cert.Spec.invDeg
  have hi : ∀ q : Fin 4096, idx_main_v0 (ix1 k) q = ix2 k q := fun q =>
    funext fun a => Fin.ext (by match a with | ⟨0, _⟩ => rfl | ⟨1, _⟩ => rfl)
  simp only [hi]

/-- The mixed matrix stage at (r, k). -/
theorem mix_read (x0 x1 : (⟨S4096x4096, .f32⟩ : BufTy).Contents (Elt Ideal)) (r k : Fin 4096) :
    val_main_v19 (F := Ideal) x0 x1 (ix2 r k) = Cert.Spec.mix x0 x1 r k := by
  have h12 : idx_main_v12 (idx_main_v13 (ix2 r k)) = ix1 k :=
    funext fun a => Fin.ext (by match a with | ⟨0, _⟩ => rfl)
  rw [val_main_v19_apply, val_main_v16_apply, val_main_v18_apply, val_main_v15_apply, val_main_v17_apply,
    val_main_cst_2_apply, val_main_cst_3_apply, val_main_v14_apply, val_main_v11_apply, val_main_v13_apply,
    val_main_v12_apply, h12, invDeg_read, eye_read]
  simp only [Ideal.mulf_def, Ideal.addf_def, Ideal.ofBits_def]
  rfl

/-- The reference's result is the specified function. -/
theorem ref_is_spec (x0 x1 x2 : (⟨S4096x4096, .f32⟩ : BufTy).Contents (Elt Ideal)) :
    val_main_v20 (F := Ideal) x0 x1 x2 = Cert.Spec.out x0 x1 x2 := by
  funext i
  obtain ⟨r, c, rfl⟩ : ∃ (r c : Fin 4096), i = ix2 r c := ⟨i 0, i 1, eq_ix2 i⟩
  rw [val_main_v20_apply, Cert.Spec.out_apply]
  unfold Cert.Spec.outAt
  refine Finset.sum_congr rfl fun k _ => ?_
  have hl : lidx_main_v20 (ix2 r c) k = ix2 r k :=
    funext fun a => Fin.ext (by match a with | ⟨0, _⟩ => rfl | ⟨1, _⟩ => rfl)
  have hr : ridx_main_v20 (ix2 r c) k = ix2 k c :=
    funext fun a => Fin.ext (by match a with | ⟨0, _⟩ => rfl | ⟨1, _⟩ => rfl)
  rw [hl, hr, mix_read]

end Cert.ReferenceIdeal.RefValue

end
-- ==== Proof.lean ====
/-
  The certificate of the static graph-convolution kernel against its reference.

  Both programs compute, for 4096×4096 matrices A, h, W,
      out = (½·h + ½·((A + I) · diag(1 / (rowsum(A) + 1)))) · W
  (the reciprocal shifted degree of vertex k scales COLUMN k). The reference does it in one host program; the
  kernel in two pipelined regions: region 0 computes the reciprocal shifted row sums 512 rows at a time, a
  host reshape turns that column into a row, and region 1 forms the mixed matrix block by block and
  multiplies it into W, accumulating the 4096-term contraction in eight runs of 512 in a scratch accumulator
  that is written to the result only after a run's last point.

  Frames: each kernel program runs through its two regions and the reshape with every unscoped buffer's final
  contents named; the argument arrays are among the buffers no region and no host line writes. The reference's
  frame is its run with the result dropped. The idealization rewrote nothing, so there is nothing to preserve.
  Value: over the extended reals both results are the one specified function of the arguments — on the kernel
  side by an induction over the points of a run (the accumulator holds the first k+1 runs of each entry's sum),
  on the reference side by reading its operations at an index; regrouping the sum needs only that addition of
  extended reals is commutative and associative, so the finiteness of the inputs is never used.
-/
import proofs.«159127_j75093208203291_1_alg».proof.Defs
import proofs.«159127_j75093208203291_1_alg».proof.Proof.Gen.Kernel
import proofs.«159127_j75093208203291_1_alg».proof.Proof.Gen.KernelIdeal
import proofs.«159127_j75093208203291_1_alg».proof.Proof.Gen.ReferenceIdeal
import proofs.«159127_j75093208203291_1_alg».proof.Proof.Gen.Pre_finite_inputs
import proofs.«159127_j75093208203291_1_alg».proof.Proof.Gen.ReferenceIdeal.Run
import proofs.«159127_j75093208203291_1_alg».proof.Proof.Gen.ReferenceIdeal.Read
import proofs.«159127_j75093208203291_1_alg».proof.Proof.K.Launch
import proofs.«159127_j75093208203291_1_alg».proof.Proof.KI.Launch
import proofs.«159127_j75093208203291_1_alg».proof.Proof.KV.Acc
import proofs.«159127_j75093208203291_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Hand.frame (F := Bits) m ρ

/-- So does its reading at the extended reals. -/
theorem frame_kernelIdeal : Cert.frame_KernelIdeal := fun m ρ _ => Cert.KernelIdeal.Hand.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the specified product of their (agreeing) arguments. -/
theorem algebraic : Cert.algebraic_KernelIdeal_ReferenceIdeal := by
  intro m ρ m' ρ' _ hagree
  refine ⟨fun c => Cert.Spec.out (Cert.KernelIdeal.Hand.matA m c) (Cert.KernelIdeal.Hand.matH m c) (Cert.KernelIdeal.Hand.matW m c), ?_, ?_⟩
  · exact (θ_run Cert.KernelIdeal.defs _ _).mono
      (fun _ h c => ⟨(h c).1.trans (Cert.KernelIdeal.Hand.result m c), (h c).2⟩)
      (Cert.KernelIdeal.Hand.valued (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.ReferenceIdeal.RefValue.ref_is_spec,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
